-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S2000x128 : Shape := ⟨2, ![2000, 128]⟩
abbrev S1x128 : Shape := ⟨2, ![1, 128]⟩

abbrev nBuf : Space → Nat
  | .hbm => 99
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x128, .f32⟩
  | .hbm, ⟨74, _⟩ => ⟨S1700000x1, .f32⟩
  | .hbm, ⟨75, _⟩ => ⟨S1700000x128, .f32⟩
  | .hbm, ⟨76, _⟩ => ⟨S1700000x128, .f32⟩
  | .hbm, ⟨77, _⟩ => ⟨S_, .f32⟩
  | .hbm, ⟨78, _⟩ => ⟨S100000x128, .f32⟩
  | .hbm, ⟨79, _⟩ => ⟨S1700000x1, .i32⟩
  | .hbm, ⟨80, _⟩ => ⟨S100000x128, .f32⟩
  | .hbm, ⟨81, _⟩ => ⟨S100000x128, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000x128, .f32⟩
  | .hbm, ⟨91, _⟩ => ⟨S1700000x1, .f32⟩
  | .hbm, ⟨92, _⟩ => ⟨S1700000x128, .f32⟩
  | .hbm, ⟨93, _⟩ => ⟨S1700000x128, .f32⟩
  | .hbm, ⟨94, _⟩ => ⟨S_, .f32⟩
  | .hbm, ⟨95, _⟩ => ⟨S100000x128, .f32⟩
  | .hbm, ⟨96, _⟩ => ⟨S1700000x1, .i32⟩
  | .hbm, ⟨97, _⟩ => ⟨S100000x128, .f32⟩
  | .hbm, ⟨98, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S128, .f32⟩
  | .local _ .vmem, ⟨16, _⟩ => ⟨S2000x128, .f32⟩
  | .local _ .vmem, ⟨17, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_9 : Ref sig .tc := ⟨.hbm, 65, rfl⟩
abbrev main_v44 : Ref sig .tc := ⟨.hbm, 66, rfl⟩
abbrev main_v45 : Ref sig .tc := ⟨.hbm, 67, rfl⟩
abbrev main_c_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v42) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v56) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v70) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x1, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S100000x128, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000x128, .f32⟩
  | .hbm, ⟨104, _⟩ => ⟨S1700000x1, .f32⟩
  | .hbm, ⟨105, _⟩ => ⟨S1700000x128, .f32⟩
  | .hbm, ⟨106, _⟩ => ⟨S1700000x128, .f32⟩
  | .hbm, ⟨107, _⟩ => ⟨S_, .f32⟩
  | .hbm, ⟨108, _⟩ => ⟨S100000x128, .f32⟩
  | .hbm, ⟨109, _⟩ => ⟨S1700000x1, .i32⟩
  | .hbm, ⟨110, _⟩ => ⟨S100000x128, .f32⟩
  | .hbm, ⟨111, _⟩ => ⟨S1x128, .f32⟩
  | .hbm, ⟨112, _⟩ => ⟨S100000x128, .f32⟩
  | .hbm, ⟨113, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.RefAgg.lean ====
/-
  The aggregation both programs share, named once.

  From the edge list `x1` both programs compute the same three arrays by the same host operations: the column of
  source rows (negative indices wrapped), the column of destination rows, and the edge coefficients spread over
  the 128 columns. `agg x1 a` is what they do with them to an array `a` of activations: gather each edge's
  source row, scale it by the edge's coefficient, and add it into the edge's destination row of a zero array.
  `transformFirst x1 a W b` is the reference's layer: the same aggregation applied to `a · W`, plus the bias.
-/
import proofs.«426604_j62036507623981_4_alg».proof.Proof.RefRead

noncomputable section

namespace Cert.ReferenceIdeal.Hand

open Cert.ReferenceIdeal Cert.ReferenceIdeal.Gen Cert.ReferenceIdeal.Read Idealize.ShloMosaic

variable {F : FTy → Type} [FloatOps F]

/-- Gather the source rows of `a`, scale by the edge coefficients, scatter-add into the destination rows. -/
def agg (x1 : (⟨S2x1600000, .i32⟩ : BufTy).Contents (Elt F)) (a : (⟨S100000x128, .f32⟩ : BufTy).Contents (Elt F)) :
    (⟨S100000x128, .f32⟩ : BufTy).Contents (Elt F) :=
  Host.scatterAdd scatter_S100000x128_S1700000x1_S1700000x128_1_0_0_1 (val_main_v41 (F := F)) (val_main_v42 (F := F) x1)
    (mulf (Host.gather gather_S100000x128_S1700000x1_S1700000x128_1_0_n_n_0_1_1128 a (val_main_v36 (F := F) x1))
      (val_main_v39 (F := F) x1))

/-- The reference's layer: aggregate the transformed activations, then add the bias row. -/
def transformFirst (x1 : (⟨S2x1600000, .i32⟩ : BufTy).Contents (Elt F)) (a : (⟨S100000x128, .f32⟩ : BufTy).Contents (Elt F))
    (W : (⟨S128x128, .f32⟩ : BufTy).Contents (Elt F)) (b : (⟨S128, .f32⟩ : BufTy).Contents (Elt F)) :
    (⟨S100000x128, .f32⟩ : BufTy).Contents (Elt F) :=
  addf (agg x1 (val_main_v30 (F := F) a W)) (val_main_v45 (F := F) b)

end Cert.ReferenceIdeal.Hand

end
-- ==== Proof.KHost.lean ====
/-
  The values the idealized kernel program's host operations leave at each region's entry.

  Between the launch and the first region, and between two regions, the program runs stretches of host operations.
  From the edge list they compute the two index rows (sources and destinations, each followed by the self loops),
  the degrees, the edge coefficients, and then, before each region, one aggregation: gather the source rows of the
  current activations, scale each by its edge's coefficient, and add it into its destination row of a zero array.
  The index rows and the coefficients are computed once and never written again, so every aggregation reads the same
  ones; the activations are the first argument before region 0 and the previous region's output afterwards. Each
  region's other two inputs, a weight matrix and a bias row, are arguments no operation writes.
-/
import proofs.«426604_j62036507623981_4_alg».proof.Proof.Gen.KernelIdeal.Frame
import proofs.«426604_j62036507623981_4_alg».proof.Proof.RefAgg

set_option maxRecDepth 16384

noncomputable section

namespace Cert.KernelIdeal.HostValues

open Cert.KernelIdeal Cert.KernelIdeal.Gen

open Idealize.ShloMosaic Idealize.ShloMosaic.TcCoe Idealize.ShloMosaic.Tactic
open Idealize.SL Idealize.SL.RA Idealize.SL.BI
open Idealize.SL.Sem
open Idealize.ShloMosaic.Pipeline (Dat Cfg Window)

open Cert.ReferenceIdeal.Read (val_main_v5 val_main_v6 val_main_v12 val_main_v13 val_main_v14 val_main_v29 val_main_cst_2)
open Cert.ReferenceIdeal.Hand (agg)

/-- A buffer that no operation of a stretch writes holds after the stretch what it held before. -/
local macro "kept_by " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

variable {F : FTy → Type} [FloatOps F]

/-! ## One stretch at a time, from ANY contents `V` before it

Each stretch's results as functions of what the stretch reads. What an earlier stretch computed enters as a
hypothesis (`V` holds it at that buffer), so no statement looks through more than one stretch. The right-hand sides
are the reference program's values of the same operations on the same edge list `x1`. -/

section Stretch
variable (V : Valuation τ sig (Elt F))

/-- The source row followed by the self loops. -/
theorem ops0_v5 : StableHlo.after hostOps0 V (Proc.devRef .tc main_v5) = val_main_v5 (V (Proc.devRef .tc main_arg1)) := by
  after_results
  rfl

/-- The destination row followed by the self loops. -/
theorem ops0_v6 : StableHlo.after hostOps0 V (Proc.devRef .tc main_v6) = val_main_v6 (V (Proc.devRef .tc main_arg1)) := by
  after_results
  rfl

/-- "The degree is positive", per node. -/
theorem ops0_v12 : StableHlo.after hostOps0 V (Proc.devRef .tc main_v12) = val_main_v12 (V (Proc.devRef .tc main_arg1)) := by
  after_results
  rfl

/-- The degree's inverse square root, per node. -/
theorem ops0_v13 : StableHlo.after hostOps0 V (Proc.devRef .tc main_v13) = val_main_v13 (V (Proc.devRef .tc main_arg1)) := by
  after_results
  rfl

/-- The zero the nodes of degree zero get. -/
theorem ops0_cst2 : StableHlo.after hostOps0 V (Proc.devRef .tc main_cst_2) = val_main_cst_2 := by
  after_results
  rfl

variable (x1 : (⟨S2x1600000, .i32⟩ : BufTy).Contents (Elt F))

/-- The node coefficients: the inverse square root of the degree where it is positive, else zero. -/
theorem ops01_v14
    (h12 : V (Proc.devRef .tc main_v12) = val_main_v12 x1) (h13 : V (Proc.devRef .tc main_v13) = val_main_v13 x1)
    (hc : V (Proc.devRef .tc main_cst_2) = val_main_cst_2) :
    StableHlo.after hostOps0_1 V (Proc.devRef .tc main_v14) = val_main_v14 x1 := by
  after_results
  simp only [StableHlo.TRef.ofBuf, StableHlo.TRef.toBuf, cast_eq]
  rw [h12, h13, hc]
  rfl

/-- The edge coefficients: the product of the two end nodes' coefficients. -/
theorem ops02_v29
    (h5 : V (Proc.devRef .tc main_v5) = val_main_v5 x1) (h6 : V (Proc.devRef .tc main_v6) = val_main_v6 x1)
    (h14 : V (Proc.devRef .tc main_v14) = val_main_v14 x1) :
    StableHlo.after hostOps0_2 V (Proc.devRef .tc main_v29) = val_main_v29 x1 := by
  after_results_simp
  rw [h5, h6, h14]
  rfl

/-- The first aggregation, of the first argument. -/
theorem ops02_v42
    (h5 : V (Proc.devRef .tc main_v5) = val_main_v5 x1) (h6 : V (Proc.devRef .tc main_v6) = val_main_v6 x1)
    (h14 : V (Proc.devRef .tc main_v14) = val_main_v14 x1) :
    StableHlo.after hostOps0_2 V (Proc.devRef .tc main_v42) = agg x1 (V (Proc.devRef .tc main_arg0)) := by
  after_results_simp
  rw [h5, h6, h14]
  rfl

/-- The second aggregation, of region 0's output. -/
theorem ops1_v56
    (h5 : V (Proc.devRef .tc main_v5) = val_main_v5 x1) (h6 : V (Proc.devRef .tc main_v6) = val_main_v6 x1)
    (h29 : V (Proc.devRef .tc main_v29) = val_main_v29 x1) :
    StableHlo.after hostOps1 V (Proc.devRef .tc main_v56) = agg x1 (V (Proc.devRef .tc main_v43)) := by
  after_results_simp
  rw [h5, h6, h29]
  rfl

/-- The third aggregation, of region 1's output. -/
theorem ops2_v70
    (h5 : V (Proc.devRef .tc main_v5) = val_main_v5 x1) (h6 : V (Proc.devRef .tc main_v6) = val_main_v6 x1)
    (h29 : V (Proc.devRef .tc main_v29) = val_main_v29 x1) :
    StableHlo.after hostOps2 V (Proc.devRef .tc main_v70) = agg x1 (V (Proc.devRef .tc main_v57)) := by
  after_results_simp
  rw [h5, h6, h29]
  rfl

end Stretch

/-! ## The fold through the program, buffer by buffer

What each buffer an aggregation reads holds at each boundary: computed once, then carried across every later stretch
(none writes it) and every region (none has it among its arrays). -/

section Fold
variable (m : (ℓ : Loc nD τ sig) → Buf (Elt F) ℓ) (ρ : Dev nD → PrngReg) (c : Dev nD)

/-! ### After the first stretch -/

theorem W1_v5 : W1 m ρ c (Proc.devRef .tc main_v5) = val_main_v5 (m ((c : Thread nD τ).loc main_arg1)) :=
  ops0_v5 (W0 m ρ c)
theorem W1_v6 : W1 m ρ c (Proc.devRef .tc main_v6) = val_main_v6 (m ((c : Thread nD τ).loc main_arg1)) :=
  ops0_v6 (W0 m ρ c)
theorem W1_v12 : W1 m ρ c (Proc.devRef .tc main_v12) = val_main_v12 (m ((c : Thread nD τ).loc main_arg1)) :=
  ops0_v12 (W0 m ρ c)
theorem W1_v13 : W1 m ρ c (Proc.devRef .tc main_v13) = val_main_v13 (m ((c : Thread nD τ).loc main_arg1)) :=
  ops0_v13 (W0 m ρ c)
theorem W1_cst2 : W1 m ρ c (Proc.devRef .tc main_cst_2) = val_main_cst_2 :=
  ops0_cst2 (W0 m ρ c)

/-! ### After the inlined selection -/

theorem W2_v5 : W2 m ρ c (Proc.devRef .tc main_v5) = val_main_v5 (m ((c : Thread nD τ).loc main_arg1)) :=
  (show W2 m ρ c (Proc.devRef .tc main_v5) = W1 m ρ c (Proc.devRef .tc main_v5) by kept_by hostOps0_1).trans (W1_v5 m ρ c)
theorem W2_v6 : W2 m ρ c (Proc.devRef .tc main_v6) = val_main_v6 (m ((c : Thread nD τ).loc main_arg1)) :=
  (show W2 m ρ c (Proc.devRef .tc main_v6) = W1 m ρ c (Proc.devRef .tc main_v6) by kept_by hostOps0_1).trans (W1_v6 m ρ c)
theorem W2_v14 : W2 m ρ c (Proc.devRef .tc main_v14) = val_main_v14 (m ((c : Thread nD τ).loc main_arg1)) :=
  ops01_v14 (W1 m ρ c) _ (W1_v12 m ρ c) (W1_v13 m ρ c) (W1_cst2 m ρ c)
theorem W2_arg0 : W2 m ρ c (Proc.devRef .tc main_arg0) = m ((c : Thread nD τ).loc main_arg0) :=
  calc W2 m ρ c (Proc.devRef .tc main_arg0)
    _ = W1 m ρ c (Proc.devRef .tc main_arg0) := by kept_by hostOps0_1
    _ = W0 m ρ c (Proc.devRef .tc main_arg0) := by kept_by hostOps0
    _ = m ((c : Thread nD τ).loc main_arg0) := rfl

/-! ### At region 0's entry -/

theorem W3_v5 : W3 m ρ c (Proc.devRef .tc main_v5) = val_main_v5 (m ((c : Thread nD τ).loc main_arg1)) :=
  (show W3 m ρ c (Proc.devRef .tc main_v5) = W2 m ρ c (Proc.devRef .tc main_v5) by kept_by hostOps0_2).trans (W2_v5 m ρ c)
theorem W3_v6 : W3 m ρ c (Proc.devRef .tc main_v6) = val_main_v6 (m ((c : Thread nD τ).loc main_arg1)) :=
  (show W3 m ρ c (Proc.devRef .tc main_v6) = W2 m ρ c (Proc.devRef .tc main_v6) by kept_by hostOps0_2).trans (W2_v6 m ρ c)
theorem W3_v29 : W3 m ρ c (Proc.devRef .tc main_v29) = val_main_v29 (m ((c : Thread nD τ).loc main_arg1)) :=
  ops02_v29 (W2 m ρ c) _ (W2_v5 m ρ c) (W2_v6 m ρ c) (W2_v14 m ρ c)
theorem W3_v42 : W3 m ρ c (Proc.devRef .tc main_v42)
    = agg (m ((c : Thread nD τ).loc main_arg1)) (m ((c : Thread nD τ).loc main_arg0)) :=
  (ops02_v42 (W2 m ρ c) _ (W2_v5 m ρ c) (W2_v6 m ρ c) (W2_v14 m ρ c)).trans (by rw [W2_arg0])

/-! ### At region 0's exit: the index rows and the coefficients are not among its arrays; its output is -/

theorem W4_v5 : W4 m ρ c (Proc.devRef .tc main_v5) = val_main_v5 (m ((c : Thread nD τ).loc main_arg1)) :=
  (show W4 m ρ c (Proc.devRef .tc main_v5) = W3 m ρ c (Proc.devRef .tc main_v5) from W4_of_ne m ρ c main_v5 (by decide)).trans (W3_v5 m ρ c)
theorem W4_v6 : W4 m ρ c (Proc.devRef .tc main_v6) = val_main_v6 (m ((c : Thread nD τ).loc main_arg1)) :=
  (show W4 m ρ c (Proc.devRef .tc main_v6) = W3 m ρ c (Proc.devRef .tc main_v6) from W4_of_ne m ρ c main_v6 (by decide)).trans (W3_v6 m ρ c)
theorem W4_v29 : W4 m ρ c (Proc.devRef .tc main_v29) = val_main_v29 (m ((c : Thread nD τ).loc main_arg1)) :=
  (show W4 m ρ c (Proc.devRef .tc main_v29) = W3 m ρ c (Proc.devRef .tc main_v29) from W4_of_ne m ρ c main_v29 (by decide)).trans (W3_v29 m ρ c)
theorem W4_v43 : W4 m ρ c (Proc.devRef .tc main_v43) = (dat0 (V3 m ρ) c).arrAt 3 cfg0.N := W4_arr m ρ c 3

/-! ### At region 1's entry -/

theorem W5_v5 : W5 m ρ c (Proc.devRef .tc main_v5) = val_main_v5 (m ((c : Thread nD τ).loc main_arg1)) :=
  (show W5 m ρ c (Proc.devRef .tc main_v5) = W4 m ρ c (Proc.devRef .tc main_v5) by kept_by hostOps1).trans (W4_v5 m ρ c)
theorem W5_v6 : W5 m ρ c (Proc.devRef .tc main_v6) = val_main_v6 (m ((c : Thread nD τ).loc main_arg1)) :=
  (show W5 m ρ c (Proc.devRef .tc main_v6) = W4 m ρ c (Proc.devRef .tc main_v6) by kept_by hostOps1).trans (W4_v6 m ρ c)
theorem W5_v29 : W5 m ρ c (Proc.devRef .tc main_v29) = val_main_v29 (m ((c : Thread nD τ).loc main_arg1)) :=
  (show W5 m ρ c (Proc.devRef .tc main_v29) = W4 m ρ c (Proc.devRef .tc main_v29) by kept_by hostOps1).trans (W4_v29 m ρ c)
theorem W5_v56 : W5 m ρ c (Proc.devRef .tc main_v56)
    = agg (m ((c : Thread nD τ).loc main_arg1)) ((dat0 (V3 m ρ) c).arrAt 3 cfg0.N) :=
  (ops1_v56 (W4 m ρ c) _ (W4_v5 m ρ c) (W4_v6 m ρ c) (W4_v29 m ρ c)).trans (by rw [W4_v43])

/-! ### At region 1's exit -/

theorem W6_v5 : W6 m ρ c (Proc.devRef .tc main_v5) = val_main_v5 (m ((c : Thread nD τ).loc main_arg1)) :=
  (show W6 m ρ c (Proc.devRef .tc main_v5) = W5 m ρ c (Proc.devRef .tc main_v5) from W6_of_ne m ρ c main_v5 (by decide)).trans (W5_v5 m ρ c)
theorem W6_v6 : W6 m ρ c (Proc.devRef .tc main_v6) = val_main_v6 (m ((c : Thread nD τ).loc main_arg1)) :=
  (show W6 m ρ c (Proc.devRef .tc main_v6) = W5 m ρ c (Proc.devRef .tc main_v6) from W6_of_ne m ρ c main_v6 (by decide)).trans (W5_v6 m ρ c)
theorem W6_v29 : W6 m ρ c (Proc.devRef .tc main_v29) = val_main_v29 (m ((c : Thread nD τ).loc main_arg1)) :=
  (show W6 m ρ c (Proc.devRef .tc main_v29) = W5 m ρ c (Proc.devRef .tc main_v29) from W6_of_ne m ρ c main_v29 (by decide)).trans (W5_v29 m ρ c)
theorem W6_v57 : W6 m ρ c (Proc.devRef .tc main_v57) = (dat1 (V5 m ρ) c).arrAt 3 cfg1.N := W6_arr m ρ c 3

/-! ### At region 2's entry -/

theorem W7_v70 : W7 m ρ c (Proc.devRef .tc main_v70)
    = agg (m ((c : Thread nD τ).loc main_arg1)) ((dat1 (V5 m ρ) c).arrAt 3 cfg1.N) :=
  (ops2_v70 (W6 m ρ c) _ (W6_v5 m ρ c) (W6_v6 m ρ c) (W6_v29 m ρ c)).trans (by rw [W6_v57])

/-! ### The weights and the biases: arguments nothing writes before the region that reads them -/

theorem W3_arg2 : W3 m ρ c (Proc.devRef .tc main_arg2) = m ((c : Thread nD τ).loc main_arg2) :=
  calc W3 m ρ c (Proc.devRef .tc main_arg2)
    _ = W2 m ρ c (Proc.devRef .tc main_arg2) := by kept_by hostOps0_2
    _ = W1 m ρ c (Proc.devRef .tc main_arg2) := by kept_by hostOps0_1
    _ = W0 m ρ c (Proc.devRef .tc main_arg2) := by kept_by hostOps0
    _ = m ((c : Thread nD τ).loc main_arg2) := rfl
theorem W3_arg3 : W3 m ρ c (Proc.devRef .tc main_arg3) = m ((c : Thread nD τ).loc main_arg3) :=
  calc W3 m ρ c (Proc.devRef .tc main_arg3)
    _ = W2 m ρ c (Proc.devRef .tc main_arg3) := by kept_by hostOps0_2
    _ = W1 m ρ c (Proc.devRef .tc main_arg3) := by kept_by hostOps0_1
    _ = W0 m ρ c (Proc.devRef .tc main_arg3) := by kept_by hostOps0
    _ = m ((c : Thread nD τ).loc main_arg3) := rfl
theorem W5_arg4 : W5 m ρ c (Proc.devRef .tc main_arg4) = m ((c : Thread nD τ).loc main_arg4) :=
  calc W5 m ρ c (Proc.devRef .tc main_arg4)
    _ = W4 m ρ c (Proc.devRef .tc main_arg4) := by kept_by hostOps1
    _ = W3 m ρ c (Proc.devRef .tc main_arg4) := W4_of_ne m ρ c main_arg4 (by decide)
    _ = W2 m ρ c (Proc.devRef .tc main_arg4) := by kept_by hostOps0_2
    _ = W1 m ρ c (Proc.devRef .tc main_arg4) := by kept_by hostOps0_1
    _ = W0 m ρ c (Proc.devRef .tc main_arg4) := by kept_by hostOps0
    _ = m ((c : Thread nD τ).loc main_arg4) := rfl
theorem W5_arg5 : W5 m ρ c (Proc.devRef .tc main_arg5) = m ((c : Thread nD τ).loc main_arg5) :=
  calc W5 m ρ c (Proc.devRef .tc main_arg5)
    _ = W4 m ρ c (Proc.devRef .tc main_arg5) := by kept_by hostOps1
    _ = W3 m ρ c (Proc.devRef .tc main_arg5) := W4_of_ne m ρ c main_arg5 (by decide)
    _ = W2 m ρ c (Proc.devRef .tc main_arg5) := by kept_by hostOps0_2
    _ = W1 m ρ c (Proc.devRef .tc main_arg5) := by kept_by hostOps0_1
    _ = W0 m ρ c (Proc.devRef .tc main_arg5) := by kept_by hostOps0
    _ = m ((c : Thread nD τ).loc main_arg5) := rfl
theorem W7_arg6 : W7 m ρ c (Proc.devRef .tc main_arg6) = m ((c : Thread nD τ).loc main_arg6) :=
  calc W7 m ρ c (Proc.devRef .tc main_arg6)
    _ = W6 m ρ c (Proc.devRef .tc main_arg6) := by kept_by hostOps2
    _ = W5 m ρ c (Proc.devRef .tc main_arg6) := W6_of_ne m ρ c main_arg6 (by decide)
    _ = W4 m ρ c (Proc.devRef .tc main_arg6) := by kept_by hostOps1
    _ = W3 m ρ c (Proc.devRef .tc main_arg6) := W4_of_ne m ρ c main_arg6 (by decide)
    _ = W2 m ρ c (Proc.devRef .tc main_arg6) := by kept_by hostOps0_2
    _ = W1 m ρ c (Proc.devRef .tc main_arg6) := by kept_by hostOps0_1
    _ = W0 m ρ c (Proc.devRef .tc main_arg6) := by kept_by hostOps0
    _ = m ((c : Thread nD τ).loc main_arg6) := rfl
theorem W7_arg7 : W7 m ρ c (Proc.devRef .tc main_arg7) = m ((c : Thread nD τ).loc main_arg7) :=
  calc W7 m ρ c (Proc.devRef .tc main_arg7)
    _ = W6 m ρ c (Proc.devRef .tc main_arg7) := by kept_by hostOps2
    _ = W5 m ρ c (Proc.devRef .tc main_arg7) := W6_of_ne m ρ c main_arg7 (by decide)
    _ = W4 m ρ c (Proc.devRef .tc main_arg7) := by kept_by hostOps1
    _ = W3 m ρ c (Proc.devRef .tc main_arg7) := W4_of_ne m ρ c main_arg7 (by decide)
    _ = W2 m ρ c (Proc.devRef .tc main_arg7) := by kept_by hostOps0_2
    _ = W1 m ρ c (Proc.devRef .tc main_arg7) := by kept_by hostOps0_1
    _ = W0 m ρ c (Proc.devRef .tc main_arg7) := by kept_by hostOps0
    _ = m ((c : Thread nD τ).loc main_arg7) := rfl

/-! ## What each region finds in its windows' arrays, and where the result is

Region `k`'s four windows read, in order: the aggregation the stretch before it computed, a weight matrix, a bias
row, and (its output) the buffer the next aggregation gathers from. -/

/-- Region 0 enters with the aggregated first argument, -/
theorem entry0_agg : V3 m ρ c (Pipeline.arrRef spec0 0)
    = agg (m ((c : Thread nD τ).loc main_arg1)) (m ((c : Thread nD τ).loc main_arg0)) := W3_v42 m ρ c
/-- the first weight matrix -/
theorem entry0_w : V3 m ρ c (Pipeline.arrRef spec0 1) = m ((c : Thread nD τ).loc main_arg2) := W3_arg2 m ρ c
/-- and the first bias row. -/
theorem entry0_b : V3 m ρ c (Pipeline.arrRef spec0 2) = m ((c : Thread nD τ).loc main_arg3) := W3_arg3 m ρ c

/-- Region 1 enters with the aggregation of what region 0's write-backs left, -/
theorem entry1_agg : V5 m ρ c (Pipeline.arrRef spec1 0)
    = agg (m ((c : Thread nD τ).loc main_arg1)) ((dat0 (V3 m ρ) c).arrAt 3 cfg0.N) := W5_v56 m ρ c
/-- the second weight matrix -/
theorem entry1_w : V5 m ρ c (Pipeline.arrRef spec1 1) = m ((c : Thread nD τ).loc main_arg4) := W5_arg4 m ρ c
/-- and the second bias row. -/
theorem entry1_b : V5 m ρ c (Pipeline.arrRef spec1 2) = m ((c : Thread nD τ).loc main_arg5) := W5_arg5 m ρ c

/-- Region 2 enters with the aggregation of what region 1's write-backs left, -/
theorem entry2_agg : V7 m ρ c (Pipeline.arrRef spec2 0)
    = agg (m ((c : Thread nD τ).loc main_arg1)) ((dat1 (V5 m ρ) c).arrAt 3 cfg1.N) := W7_v70 m ρ c
/-- the third weight matrix -/
theorem entry2_w : V7 m ρ c (Pipeline.arrRef spec2 1) = m ((c : Thread nD τ).loc main_arg6) := W7_arg6 m ρ c
/-- and the third bias row. -/
theorem entry2_b : V7 m ρ c (Pipeline.arrRef spec2 2) = m ((c : Thread nD τ).loc main_arg7) := W7_arg7 m ρ c

/-- The program's result is what region 2's write-backs leave in its output array. -/
theorem result_eq : W8 m ρ c (Proc.devRef .tc main_v71) = (dat2 (V7 m ρ) c).arrAt 3 cfg2.N := W8_arr m ρ c 3

end Fold

end Cert.KernelIdeal.HostValues

end
-- ==== Proof.GcnSpec.lean ====
/-
  The vocabulary shared by every module of this proof: the literal shapes of a graph-convolution layer on
  100000 nodes with 128 features and 1700000 edges (the 1600000 given ones and one self loop per node), and the
  DENSE TRANSFORM of one layer as a single function of whole arrays: entry (i, q) of the result is the inner
  product of row i of the aggregated activations with column q of the weights, plus entry q of the bias; the
  first two layers then take the maximum with zero.
-/
import Idealize.ShloMosaic.PureOps.Ideal
import Idealize.ShloMosaic.Lib.ValueIdx

noncomputable section

open scoped BigOperators

namespace GcnSpec

open Idealize.ShloMosaic Idealize.ShloMosaic.ValueIdx

/-- Node features: one row of 128 per node. -/
abbrev SN : Shape := ⟨2, ![100000, 128]⟩
/-- A weight matrix. -/
abbrev SW : Shape := ⟨2, ![128, 128]⟩
/-- A bias row. -/
abbrev SB : Shape := ⟨1, ![128]⟩
/-- Edge messages: one row of 128 per edge. -/
abbrev SE : Shape := ⟨2, ![1700000, 128]⟩
/-- A column of one index per edge. -/
abbrev SC : Shape := ⟨2, ![1700000, 1]⟩
/-- One number per edge. -/
abbrev SV : Shape := ⟨1, ![1700000]⟩

/-- Row `i` of `A` times `W`, plus the bias: entry (i, q) is `∑ k, A[i, k] · W[k, q] + b[q]`. -/
def dense (A : SN.Idx → EReal) (W : SW.Idx → EReal) (b : SB.Idx → EReal) : SN.Idx → EReal :=
  fun i => (∑ k : Fin 128, A (ix2 ⟨(i 0).val, idx2_lt0 i⟩ k) * W (ix2 k ⟨(i 1).val, idx2_lt1 i⟩))
    + b (ix1 ⟨(i 1).val, idx2_lt1 i⟩)

/-- The dense transform followed by the maximum with zero. -/
def denseRelu (A : SN.Idx → EReal) (W : SW.Idx → EReal) (b : SB.Idx → EReal) : SN.Idx → EReal :=
  fun i => max (dense A W b i) 0

/-- The dense transform at the index with coordinates `p`, `q`. -/
theorem dense_ix2 (A : SN.Idx → EReal) (W : SW.Idx → EReal) (b : SB.Idx → EReal) (p : Fin 100000) (q : Fin 128) :
    dense A W b (ix2 p q) = (∑ k : Fin 128, A (ix2 p k) * W (ix2 k q)) + b (ix1 q) := rfl

/-- The same with the maximum. -/
theorem denseRelu_ix2 (A : SN.Idx → EReal) (W : SW.Idx → EReal) (b : SB.Idx → EReal) (p : Fin 100000) (q : Fin 128) :
    denseRelu A W b (ix2 p q) = max ((∑ k : Fin 128, A (ix2 p k) * W (ix2 k q)) + b (ix1 q)) 0 := rfl

end GcnSpec

end
-- ==== Proof.KRegion0.lean ====
/-
  The first dense layer, read as a value. The computation walks the 100000 rows of the aggregated activations
  in 50 blocks of 2000 rows; for each block it forms the dense transform followed by the maximum with zero of the
  block's rows (the block times the whole 128 x 128 weight matrix, plus the bias row on every row) and writes the
  2000 rows back. This module shows that the array it leaves is the dense transform followed by the maximum with zero
  of the three arrays it found (GcnSpec.denseRelu).
-/
import proofs.«426604_j62036507623981_4_alg».proof.Proof.Gen.KernelIdeal.Frame
import proofs.«426604_j62036507623981_4_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Idealize.ShloMosaic Idealize.ShloMosaic.TcCoe Idealize.ShloMosaic.ValueIdx
open Idealize.SL Idealize.SL.Sem
open Idealize.ShloMosaic.Pipeline (Dat)

/-! ## The product of a block of rows with the weights, entry by entry -/

/-- The contraction of the block's second axis with the weights' first. -/
abbrev rowsByWeights : DotDims S2000x128 S128x128 S2000x128 := dot_S2000x128_S128x128_S2000x128_1_0_0_1_n_n

/-- The left factor keeps the output's row. -/
theorem lhs_axis0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left factor's column is the summation index. -/
theorem lhs_axis1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right factor's row is the summation index. -/
theorem rhs_axis0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right factor keeps the output's column. -/
theorem rhs_axis1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (p, q) of the product accumulated onto zero is the inner product of row p of the block with column q
    of the weights. -/
theorem matmul_ix2 (x0 : FVec Ideal S2000x128 .f32) (x1 : FVec Ideal S128x128 .f32) (p : Fin 2000) (q : Fin 128) :
    matmul dot_S2000x128_S128x128_S2000x128_1_0_0_1_n_n (some .fp32) x0 x1 (constant (F := Ideal) S2000x128 .f32 0x00000000#32) (ix2 p q)
      = ∑ k : Fin 128, x0 (ix2 p k) * x1 (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The body's arithmetic at an entry -/

/-- Entry (p, q) of what the body stores: the inner product of row p of the block with column q of the weights,
    plus entry q of the bias, not below zero. -/
theorem payload_ix2 (x0 : Vec Ideal S2000x128 .f32) (x1 : Vec Ideal S128x128 .f32) (x2 : Vec Ideal S128 .f32)
    (p : Fin 2000) (q : Fin 128) :
    Gen.k0_pay1 (F := Ideal) x0 x1 x2 (ix2 p q) = max ((∑ k : Fin 128, x0 (ix2 p k) * x1 (ix2 k q)) + x2 (ix1 q)) 0 := by
  unfold Gen.k0_pay1
  rw [maximumf_apply, addf_apply, broadcast_apply, shapeCast_self, matmul_ix2, broadcastTo_1b_ab_apply, shapeCast_a_1a_apply]
  show max _ (Ideal.ofBits .f32 0x00000000#32) = _
  rw [Ideal.ofBits_zero_f32]

/-! ## One block of rows -/

/-- If a block holds rows 2000 · r … 2000 · r + 1999 of the activations, and the weights and the bias are the whole
    arrays, then entry j of what the body stores is the dense transform followed by the maximum with zero read at
    the array's entry in row 2000 · r + j₀ and column j₁. -/
theorem block_entry (A : GcnSpec.SN.Idx → EReal) (W : GcnSpec.SW.Idx → EReal) (b : GcnSpec.SB.Idx → EReal)
    (x0 : Vec Ideal S2000x128 .f32) (x1 : Vec Ideal S128x128 .f32) (x2 : Vec Ideal S128 .f32)
    (r : Nat) (hr : r < 50)
    (h0 : ∀ (p : Fin 2000) (k : Fin 128), x0 (ix2 p k) = A (ix2 ⟨r * 2000 + p.val, by omega⟩ k))
    (h1 : ∀ y : S128x128.Idx, x1 y = W y) (h2 : ∀ y : S128.Idx, x2 y = b y)
    (j : S2000x128.Idx) (i : GcnSpec.SN.Idx) (hi0 : (i 0).val = r * 2000 + (j 0).val) (hi1 : (i 1).val = (j 1).val) :
    Gen.k0_pay1 (F := Ideal) x0 x1 x2 j = GcnSpec.denseRelu A W b i := by
  obtain ⟨p, q, rfl⟩ : ∃ (p : Fin 2000) (q : Fin 128), j = ix2 p q := ⟨j 0, j 1, eq_ix2 j⟩
  have hb : r * 2000 + p.val < 100000 := by omega
  obtain ⟨p', q', rfl⟩ : ∃ (p' : Fin 100000) (q' : Fin 128), i = ix2 p' q' := ⟨i 0, i 1, eq_ix2 i⟩
  have hp : p' = ⟨r * 2000 + p.val, hb⟩ := Fin.ext hi0
  have hq : q' = q := Fin.ext hi1
  rw [hp, hq, payload_ix2, GcnSpec.denseRelu_ix2]
  simp only [h0, h1, h2]

/-! ## The arrays the layer finds -/

variable (V : (c : Dev nD) → (b : Ref sig .tc) → Buf (Elt Ideal) ((c : Thread nD τ).loc b))

/-- The aggregated activations, one row of 128 per node. -/
abbrev aggArr (c : Dev nD) : (⟨2, ![100000, 128]⟩ : Shape).Idx → EReal := V c (Pipeline.arrRef spec0 0)
/-- The weight matrix. -/
abbrev wArr (c : Dev nD) : (⟨2, ![128, 128]⟩ : Shape).Idx → EReal := V c (Pipeline.arrRef spec0 1)
/-- The bias row. -/
abbrev bArr (c : Dev nD) : (⟨1, ![128]⟩ : Shape).Idx → EReal := V c (Pipeline.arrRef spec0 2)

theorem hz2 : (![0, 0] : Fin 2 → Nat) = fun _ => 0 := funext fun a => by fin_cases a <;> rfl
theorem hz1 : (![0] : Fin 1 → Nat) = fun _ => 0 := funext fun a => by fin_cases a <;> rfl

/-- Where the blocks sit: block t of the activations and of the result starts at row 2000 · t and column 0; the
    weights and the bias are taken whole at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- WHAT POINT t WRITES BACK is block t of the dense transform followed by the maximum with zero of the three
    arrays as the layer finds them. -/
theorem flushed_eq (c : Dev nD) (t : Fin cfg0.N) :
    (Gen.dat0 (F := Ideal) V c).flushed 3 t
      = ((cfg0.win 3).blk t).view.read (Elt Ideal) (GcnSpec.denseRelu (aggArr V c) (wArr V c) (bArr V c)) := by
  show (cfg0.win 3).cut (grid0.coords t) ((Gen.dat0 (F := Ideal) V c).after 3 t) = _
  rw [Gen.after0_3]
  unfold Gen.out0_3
  rw [View.canon_unit_zero hz2]
  simp only [View.ld_unit_zero (S := S2000x128) hz2, View.ld_unit_zero (S := S128x128) hz2, View.ld_unit_zero (S := S128) hz1]
  obtain ⟨e0, e1, e2, e3, e4, e5, e6⟩ := idx_facts t
  have ht : t.val < 50 := lt_of_lt_of_eq t.isLt Gen.N_0
  funext j
  show Gen.k0_pay1 (F := Ideal) (Gen.iblk0 V c 0 t) (Gen.iblk0 V c 1 t) (Gen.iblk0 V c 2 t) j
    = GcnSpec.denseRelu (aggArr V c) (wArr V c) (bArr V c) (((cfg0.win 3).blk t).view.emb j)
  refine block_entry (aggArr V c) (wArr V c) (bArr V c) (Gen.iblk0 V c 0 t) (Gen.iblk0 V c 1 t) (Gen.iblk0 V c 2 t)
    t.val ht ?_ ?_ ?_ j (((cfg0.win 3).blk t).view.emb j) ?_ ?_
  · intro p k
    show V c (Pipeline.arrRef spec0 0) (((cfg0.win 0).blk t).view.emb (ix2 p k)) = V c (Pipeline.arrRef spec0 0) (ix2 ⟨t.val * 2000 + p.val, by omega⟩ k)
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  · intro y
    show V c (Pipeline.arrRef spec0 1) (((cfg0.win 1).blk t).view.emb y) = V c (Pipeline.arrRef spec0 1) y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · intro y
    show V c (Pipeline.arrRef spec0 2) (((cfg0.win 2).blk t).view.emb y) = V c (Pipeline.arrRef spec0 2) y
    refine congrArg _ (funext fun a => Fin.ext ?_)
    match a with
    | ⟨0, _⟩ => show win0_2.index t (0 : Fin 1) * 128 + 1 * (y 0).val = (y 0).val; omega
  · show win0_3.index t (0 : Fin 2) * 2000 + 1 * (j 0).val = t.val * 2000 + (j 0).val; omega
  · show win0_3.index t (1 : Fin 2) * 128 + 1 * (j 1).val = (j 1).val; omega

/-! ## The blocks fill the array -/

/-- An index of the array is in point t's block iff each coordinate is in the block's range on its axis. -/
theorem mem_blk (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v43).slice (win0_3.rect t)).set ↔ _
  rw [View.set_slice_whole, Rect.mem_set_unit]
  exact Iff.rfl

/-- Row r of the array lies in the block of point r / 2000, and every column lies in every block. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := Gen.N_0
  obtain ⟨t, ht⟩ : ∃ t : Fin cfg0.N, t.val = (i 0).val / 2000 := ⟨⟨(i 0).val / 2000, by rw [hN]; omega⟩, rfl⟩
  obtain ⟨-, -, -, -, -, e5, e6⟩ := idx_facts t
  refine ⟨t, Gen.flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-! ## The array the layer leaves -/

/-- THE RESULT ARRAY after all 50 points: the dense transform followed by the maximum with zero of the three
    arrays the layer found. -/
theorem arrAt3 (c : Dev nD) :
    (Gen.dat0 (F := Ideal) V c).arrAt 3 cfg0.N = GcnSpec.denseRelu (aggArr V c) (wArr V c) (bArr V c) :=
  (Gen.dat0 (F := Ideal) V c).arrAt_eq_of_cover 3 _ (fun t _ => flushed_eq V c t) cover

end Cert.KernelIdeal.Region0

end
-- ==== Proof.KRegion1.lean ====
/-
  The second dense layer, read as a value. The computation walks the 100000 rows of the aggregated activations
  in 50 blocks of 2000 rows; for each block it forms the dense transform followed by the maximum with zero of the
  block's rows (the block times the whole 128 x 128 weight matrix, plus the bias row on every row) and writes the
  2000 rows back. This module shows that the array it leaves is the dense transform followed by the maximum with zero
  of the three arrays it found (GcnSpec.denseRelu).
-/
import proofs.«426604_j62036507623981_4_alg».proof.Proof.Gen.KernelIdeal.Frame
import proofs.«426604_j62036507623981_4_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Idealize.ShloMosaic Idealize.ShloMosaic.TcCoe Idealize.ShloMosaic.ValueIdx
open Idealize.SL Idealize.SL.Sem
open Idealize.ShloMosaic.Pipeline (Dat)

/-! ## The product of a block of rows with the weights, entry by entry -/

/-- The contraction of the block's second axis with the weights' first. -/
abbrev rowsByWeights : DotDims S2000x128 S128x128 S2000x128 := dot_S2000x128_S128x128_S2000x128_1_0_0_1_n_n

/-- The left factor keeps the output's row. -/
theorem lhs_axis0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left factor's column is the summation index. -/
theorem lhs_axis1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right factor's row is the summation index. -/
theorem rhs_axis0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right factor keeps the output's column. -/
theorem rhs_axis1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (p, q) of the product accumulated onto zero is the inner product of row p of the block with column q
    of the weights. -/
theorem matmul_ix2 (x0 : FVec Ideal S2000x128 .f32) (x1 : FVec Ideal S128x128 .f32) (p : Fin 2000) (q : Fin 128) :
    matmul dot_S2000x128_S128x128_S2000x128_1_0_0_1_n_n (some .fp32) x0 x1 (constant (F := Ideal) S2000x128 .f32 0x00000000#32) (ix2 p q)
      = ∑ k : Fin 128, x0 (ix2 p k) * x1 (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The body's arithmetic at an entry -/

/-- Entry (p, q) of what the body stores: the inner product of row p of the block with column q of the weights,
    plus entry q of the bias, not below zero. -/
theorem payload_ix2 (x0 : Vec Ideal S2000x128 .f32) (x1 : Vec Ideal S128x128 .f32) (x2 : Vec Ideal S128 .f32)
    (p : Fin 2000) (q : Fin 128) :
    Gen.k1_pay1 (F := Ideal) x0 x1 x2 (ix2 p q) = max ((∑ k : Fin 128, x0 (ix2 p k) * x1 (ix2 k q)) + x2 (ix1 q)) 0 := by
  unfold Gen.k1_pay1
  rw [maximumf_apply, addf_apply, broadcast_apply, shapeCast_self, matmul_ix2, broadcastTo_1b_ab_apply, shapeCast_a_1a_apply]
  show max _ (Ideal.ofBits .f32 0x00000000#32) = _
  rw [Ideal.ofBits_zero_f32]

/-! ## One block of rows -/

/-- If a block holds rows 2000 · r … 2000 · r + 1999 of the activations, and the weights and the bias are the whole
    arrays, then entry j of what the body stores is the dense transform followed by the maximum with zero read at
    the array's entry in row 2000 · r + j₀ and column j₁. -/
theorem block_entry (A : GcnSpec.SN.Idx → EReal) (W : GcnSpec.SW.Idx → EReal) (b : GcnSpec.SB.Idx → EReal)
    (x0 : Vec Ideal S2000x128 .f32) (x1 : Vec Ideal S128x128 .f32) (x2 : Vec Ideal S128 .f32)
    (r : Nat) (hr : r < 50)
    (h0 : ∀ (p : Fin 2000) (k : Fin 128), x0 (ix2 p k) = A (ix2 ⟨r * 2000 + p.val, by omega⟩ k))
    (h1 : ∀ y : S128x128.Idx, x1 y = W y) (h2 : ∀ y : S128.Idx, x2 y = b y)
    (j : S2000x128.Idx) (i : GcnSpec.SN.Idx) (hi0 : (i 0).val = r * 2000 + (j 0).val) (hi1 : (i 1).val = (j 1).val) :
    Gen.k1_pay1 (F := Ideal) x0 x1 x2 j = GcnSpec.denseRelu A W b i := by
  obtain ⟨p, q, rfl⟩ : ∃ (p : Fin 2000) (q : Fin 128), j = ix2 p q := ⟨j 0, j 1, eq_ix2 j⟩
  have hb : r * 2000 + p.val < 100000 := by omega
  obtain ⟨p', q', rfl⟩ : ∃ (p' : Fin 100000) (q' : Fin 128), i = ix2 p' q' := ⟨i 0, i 1, eq_ix2 i⟩
  have hp : p' = ⟨r * 2000 + p.val, hb⟩ := Fin.ext hi0
  have hq : q' = q := Fin.ext hi1
  rw [hp, hq, payload_ix2, GcnSpec.denseRelu_ix2]
  simp only [h0, h1, h2]

/-! ## The arrays the layer finds -/

variable (V : (c : Dev nD) → (b : Ref sig .tc) → Buf (Elt Ideal) ((c : Thread nD τ).loc b))

/-- The aggregated activations, one row of 128 per node. -/
abbrev aggArr (c : Dev nD) : (⟨2, ![100000, 128]⟩ : Shape).Idx → EReal := V c (Pipeline.arrRef spec1 0)
/-- The weight matrix. -/
abbrev wArr (c : Dev nD) : (⟨2, ![128, 128]⟩ : Shape).Idx → EReal := V c (Pipeline.arrRef spec1 1)
/-- The bias row. -/
abbrev bArr (c : Dev nD) : (⟨1, ![128]⟩ : Shape).Idx → EReal := V c (Pipeline.arrRef spec1 2)

theorem hz2 : (![0, 0] : Fin 2 → Nat) = fun _ => 0 := funext fun a => by fin_cases a <;> rfl
theorem hz1 : (![0] : Fin 1 → Nat) = fun _ => 0 := funext fun a => by fin_cases a <;> rfl

/-- Where the blocks sit: block t of the activations and of the result starts at row 2000 · t and column 0; the
    weights and the bias are taken whole at every point. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- WHAT POINT t WRITES BACK is block t of the dense transform followed by the maximum with zero of the three
    arrays as the layer finds them. -/
theorem flushed_eq (c : Dev nD) (t : Fin cfg1.N) :
    (Gen.dat1 (F := Ideal) V c).flushed 3 t
      = ((cfg1.win 3).blk t).view.read (Elt Ideal) (GcnSpec.denseRelu (aggArr V c) (wArr V c) (bArr V c)) := by
  show (cfg1.win 3).cut (grid1.coords t) ((Gen.dat1 (F := Ideal) V c).after 3 t) = _
  rw [Gen.after1_3]
  unfold Gen.out1_3
  rw [View.canon_unit_zero hz2]
  simp only [View.ld_unit_zero (S := S2000x128) hz2, View.ld_unit_zero (S := S128x128) hz2, View.ld_unit_zero (S := S128) hz1]
  obtain ⟨e0, e1, e2, e3, e4, e5, e6⟩ := idx_facts t
  have ht : t.val < 50 := lt_of_lt_of_eq t.isLt Gen.N_1
  funext j
  show Gen.k1_pay1 (F := Ideal) (Gen.iblk1 V c 0 t) (Gen.iblk1 V c 1 t) (Gen.iblk1 V c 2 t) j
    = GcnSpec.denseRelu (aggArr V c) (wArr V c) (bArr V c) (((cfg1.win 3).blk t).view.emb j)
  refine block_entry (aggArr V c) (wArr V c) (bArr V c) (Gen.iblk1 V c 0 t) (Gen.iblk1 V c 1 t) (Gen.iblk1 V c 2 t)
    t.val ht ?_ ?_ ?_ j (((cfg1.win 3).blk t).view.emb j) ?_ ?_
  · intro p k
    show V c (Pipeline.arrRef spec1 0) (((cfg1.win 0).blk t).view.emb (ix2 p k)) = V c (Pipeline.arrRef spec1 0) (ix2 ⟨t.val * 2000 + p.val, by omega⟩ k)
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * k.val = k.val; omega
  · intro y
    show V c (Pipeline.arrRef spec1 1) (((cfg1.win 1).blk t).view.emb y) = V c (Pipeline.arrRef spec1 1) y
    refine congrArg _ (funext fun a => Fin.ext ?_)
    match a with
    | ⟨0, _⟩ => show win1_1.index t (0 : Fin 2) * 128 + 1 * (y 0).val = (y 0).val; omega
    | ⟨1, _⟩ => show win1_1.index t (1 : Fin 2) * 128 + 1 * (y 1).val = (y 1).val; omega
  · intro y
    show V c (Pipeline.arrRef spec1 2) (((cfg1.win 2).blk t).view.emb y) = V c (Pipeline.arrRef spec1 2) y
    refine congrArg _ (funext fun a => Fin.ext ?_)
    match a with
    | ⟨0, _⟩ => show win1_2.index t (0 : Fin 1) * 128 + 1 * (y 0).val = (y 0).val; omega
  · show win1_3.index t (0 : Fin 2) * 2000 + 1 * (j 0).val = t.val * 2000 + (j 0).val; omega
  · show win1_3.index t (1 : Fin 2) * 128 + 1 * (j 1).val = (j 1).val; omega

/-! ## The blocks fill the array -/

/-- An index of the array is in point t's block iff each coordinate is in the block's range on its axis. -/
theorem mem_blk (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v57).slice (win1_3.rect t)).set ↔ _
  rw [View.set_slice_whole, Rect.mem_set_unit]
  exact Iff.rfl

/-- Row r of the array lies in the block of point r / 2000, and every column lies in every block. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 50 := Gen.N_1
  obtain ⟨t, ht⟩ : ∃ t : Fin cfg1.N, t.val = (i 0).val / 2000 := ⟨⟨(i 0).val / 2000, by rw [hN]; omega⟩, rfl⟩
  obtain ⟨-, -, -, -, -, e5, e6⟩ := idx_facts t
  refine ⟨t, Gen.flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-! ## The array the layer leaves -/

/-- THE RESULT ARRAY after all 50 points: the dense transform followed by the maximum with zero of the three
    arrays the layer found. -/
theorem arrAt3 (c : Dev nD) :
    (Gen.dat1 (F := Ideal) V c).arrAt 3 cfg1.N = GcnSpec.denseRelu (aggArr V c) (wArr V c) (bArr V c) :=
  (Gen.dat1 (F := Ideal) V c).arrAt_eq_of_cover 3 _ (fun t _ => flushed_eq V c t) cover

end Cert.KernelIdeal.Region1

end
-- ==== Proof.KRegion2.lean ====
/-
  The third dense layer, read as a value. The computation walks the 100000 rows of the aggregated activations
  in 50 blocks of 2000 rows; for each block it forms the dense transform of the
  block's rows (the block times the whole 128 x 128 weight matrix, plus the bias row on every row) and writes the
  2000 rows back. This module shows that the array it leaves is the dense transform
  of the three arrays it found (GcnSpec.dense).
-/
import proofs.«426604_j62036507623981_4_alg».proof.Proof.Gen.KernelIdeal.Frame
import proofs.«426604_j62036507623981_4_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Idealize.ShloMosaic Idealize.ShloMosaic.TcCoe Idealize.ShloMosaic.ValueIdx
open Idealize.SL Idealize.SL.Sem
open Idealize.ShloMosaic.Pipeline (Dat)

/-! ## The product of a block of rows with the weights, entry by entry -/

/-- The contraction of the block's second axis with the weights' first. -/
abbrev rowsByWeights : DotDims S2000x128 S128x128 S2000x128 := dot_S2000x128_S128x128_S2000x128_1_0_0_1_n_n

/-- The left factor keeps the output's row. -/
theorem lhs_axis0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left factor's column is the summation index. -/
theorem lhs_axis1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right factor's row is the summation index. -/
theorem rhs_axis0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right factor keeps the output's column. -/
theorem rhs_axis1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (p, q) of the product accumulated onto zero is the inner product of row p of the block with column q
    of the weights. -/
theorem matmul_ix2 (x0 : FVec Ideal S2000x128 .f32) (x1 : FVec Ideal S128x128 .f32) (p : Fin 2000) (q : Fin 128) :
    matmul dot_S2000x128_S128x128_S2000x128_1_0_0_1_n_n (some .fp32) x0 x1 (constant (F := Ideal) S2000x128 .f32 0x00000000#32) (ix2 p q)
      = ∑ k : Fin 128, x0 (ix2 p k) * x1 (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The body's arithmetic at an entry -/

/-- Entry (p, q) of what the body stores: the inner product of row p of the block with column q of the weights,
    plus entry q of the bias. -/
theorem payload_ix2 (x0 : Vec Ideal S2000x128 .f32) (x1 : Vec Ideal S128x128 .f32) (x2 : Vec Ideal S128 .f32)
    (p : Fin 2000) (q : Fin 128) :
    Gen.k2_pay1 (F := Ideal) x0 x1 x2 (ix2 p q) = (∑ k : Fin 128, x0 (ix2 p k) * x1 (ix2 k q)) + x2 (ix1 q) := by
  unfold Gen.k2_pay1
  rw [addf_apply, shapeCast_self, matmul_ix2, broadcastTo_1b_ab_apply, shapeCast_a_1a_apply]

/-! ## One block of rows -/

/-- If a block holds rows 2000 · r … 2000 · r + 1999 of the activations, and the weights and the bias are the whole
    arrays, then entry j of what the body stores is the dense transform read at
    the array's entry in row 2000 · r + j₀ and column j₁. -/
theorem block_entry (A : GcnSpec.SN.Idx → EReal) (W : GcnSpec.SW.Idx → EReal) (b : GcnSpec.SB.Idx → EReal)
    (x0 : Vec Ideal S2000x128 .f32) (x1 : Vec Ideal S128x128 .f32) (x2 : Vec Ideal S128 .f32)
    (r : Nat) (hr : r < 50)
    (h0 : ∀ (p : Fin 2000) (k : Fin 128), x0 (ix2 p k) = A (ix2 ⟨r * 2000 + p.val, by omega⟩ k))
    (h1 : ∀ y : S128x128.Idx, x1 y = W y) (h2 : ∀ y : S128.Idx, x2 y = b y)
    (j : S2000x128.Idx) (i : GcnSpec.SN.Idx) (hi0 : (i 0).val = r * 2000 + (j 0).val) (hi1 : (i 1).val = (j 1).val) :
    Gen.k2_pay1 (F := Ideal) x0 x1 x2 j = GcnSpec.dense A W b i := by
  obtain ⟨p, q, rfl⟩ : ∃ (p : Fin 2000) (q : Fin 128), j = ix2 p q := ⟨j 0, j 1, eq_ix2 j⟩
  have hb : r * 2000 + p.val < 100000 := by omega
  obtain ⟨p', q', rfl⟩ : ∃ (p' : Fin 100000) (q' : Fin 128), i = ix2 p' q' := ⟨i 0, i 1, eq_ix2 i⟩
  have hp : p' = ⟨r * 2000 + p.val, hb⟩ := Fin.ext hi0
  have hq : q' = q := Fin.ext hi1
  rw [hp, hq, payload_ix2, GcnSpec.dense_ix2]
  simp only [h0, h1, h2]

/-! ## The arrays the layer finds -/

variable (V : (c : Dev nD) → (b : Ref sig .tc) → Buf (Elt Ideal) ((c : Thread nD τ).loc b))

/-- The aggregated activations, one row of 128 per node. -/
abbrev aggArr (c : Dev nD) : (⟨2, ![100000, 128]⟩ : Shape).Idx → EReal := V c (Pipeline.arrRef spec2 0)
/-- The weight matrix. -/
abbrev wArr (c : Dev nD) : (⟨2, ![128, 128]⟩ : Shape).Idx → EReal := V c (Pipeline.arrRef spec2 1)
/-- The bias row. -/
abbrev bArr (c : Dev nD) : (⟨1, ![128]⟩ : Shape).Idx → EReal := V c (Pipeline.arrRef spec2 2)

theorem hz2 : (![0, 0] : Fin 2 → Nat) = fun _ => 0 := funext fun a => by fin_cases a <;> rfl
theorem hz1 : (![0] : Fin 1 → Nat) = fun _ => 0 := funext fun a => by fin_cases a <;> rfl

/-- Where the blocks sit: block t of the activations and of the result starts at row 2000 · t and column 0; the
    weights and the bias are taken whole at every point. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- WHAT POINT t WRITES BACK is block t of the dense transform of the three
    arrays as the layer finds them. -/
theorem flushed_eq (c : Dev nD) (t : Fin cfg2.N) :
    (Gen.dat2 (F := Ideal) V c).flushed 3 t
      = ((cfg2.win 3).blk t).view.read (Elt Ideal) (GcnSpec.dense (aggArr V c) (wArr V c) (bArr V c)) := by
  show (cfg2.win 3).cut (grid2.coords t) ((Gen.dat2 (F := Ideal) V c).after 3 t) = _
  rw [Gen.after2_3]
  unfold Gen.out2_3
  rw [View.canon_unit_zero hz2]
  simp only [View.ld_unit_zero (S := S2000x128) hz2, View.ld_unit_zero (S := S128x128) hz2, View.ld_unit_zero (S := S128) hz1]
  obtain ⟨e0, e1, e2, e3, e4, e5, e6⟩ := idx_facts t
  have ht : t.val < 50 := lt_of_lt_of_eq t.isLt Gen.N_2
  funext j
  show Gen.k2_pay1 (F := Ideal) (Gen.iblk2 V c 0 t) (Gen.iblk2 V c 1 t) (Gen.iblk2 V c 2 t) j
    = GcnSpec.dense (aggArr V c) (wArr V c) (bArr V c) (((cfg2.win 3).blk t).view.emb j)
  refine block_entry (aggArr V c) (wArr V c) (bArr V c) (Gen.iblk2 V c 0 t) (Gen.iblk2 V c 1 t) (Gen.iblk2 V c 2 t)
    t.val ht ?_ ?_ ?_ j (((cfg2.win 3).blk t).view.emb j) ?_ ?_
  · intro p k
    show V c (Pipeline.arrRef spec2 0) (((cfg2.win 0).blk t).view.emb (ix2 p k)) = V c (Pipeline.arrRef spec2 0) (ix2 ⟨t.val * 2000 + p.val, by omega⟩ k)
    refine congrArg _ (funext fun a => Fin.ext ?_)
    match a with
    | ⟨0, _⟩ => show win2_0.index t (0 : Fin 2) * 2000 + 1 * p.val = t.val * 2000 + p.val; omega
    | ⟨1, _⟩ => show win2_0.index t (1 : Fin 2) * 128 + 1 * k.val = k.val; omega
  · intro y
    show V c (Pipeline.arrRef spec2 1) (((cfg2.win 1).blk t).view.emb y) = V c (Pipeline.arrRef spec2 1) y
    refine congrArg _ (funext fun a => Fin.ext ?_)
    match a with
    | ⟨0, _⟩ => show win2_1.index t (0 : Fin 2) * 128 + 1 * (y 0).val = (y 0).val; omega
    | ⟨1, _⟩ => show win2_1.index t (1 : Fin 2) * 128 + 1 * (y 1).val = (y 1).val; omega
  · intro y
    show V c (Pipeline.arrRef spec2 2) (((cfg2.win 2).blk t).view.emb y) = V c (Pipeline.arrRef spec2 2) y
    refine congrArg _ (funext fun a => Fin.ext ?_)
    match a with
    | ⟨0, _⟩ => show win2_2.index t (0 : Fin 1) * 128 + 1 * (y 0).val = (y 0).val; omega
  · show win2_3.index t (0 : Fin 2) * 2000 + 1 * (j 0).val = t.val * 2000 + (j 0).val; omega
  · show win2_3.index t (1 : Fin 2) * 128 + 1 * (j 1).val = (j 1).val; omega

/-! ## The blocks fill the array -/

/-- An index of the array is in point t's block iff each coordinate is in the block's range on its axis. -/
theorem mem_blk (t : Fin cfg2.N) (i : S100000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v71).slice (win2_3.rect t)).set ↔ _
  rw [View.set_slice_whole, Rect.mem_set_unit]
  exact Iff.rfl

/-- Row r of the array lies in the block of point r / 2000, and every column lies in every block. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 50 := Gen.N_2
  obtain ⟨t, ht⟩ : ∃ t : Fin cfg2.N, t.val = (i 0).val / 2000 := ⟨⟨(i 0).val / 2000, by rw [hN]; omega⟩, rfl⟩
  obtain ⟨-, -, -, -, -, e5, e6⟩ := idx_facts t
  refine ⟨t, Gen.flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-! ## The array the layer leaves -/

/-- THE RESULT ARRAY after all 50 points: the dense transform of the three
    arrays the layer found. -/
theorem arrAt3 (c : Dev nD) :
    (Gen.dat2 (F := Ideal) V c).arrAt 3 cfg2.N = GcnSpec.dense (aggArr V c) (wArr V c) (bArr V c) :=
  (Gen.dat2 (F := Ideal) V c).arrAt_eq_of_cover 3 _ (fun t _ => flushed_eq V c t) cover

end Cert.KernelIdeal.Region2

end
-- ==== Proof.Reals.lean ====
/-
  Arrays of real numbers inside the extended reals, and the one algebraic law of this proof.

  On the extended reals a product does not distribute over a sum when an infinity is present, so the law that
  joins the two programs -- aggregating neighbours' rows with real coefficients commutes with multiplying the
  rows by a weight matrix -- is proved for arrays all of whose entries are real numbers, by carrying both sides
  into the reals, where it is an exchange of two finite sums.
-/
import Idealize.ShloMosaic.PureOps.Ideal

noncomputable section

open scoped BigOperators

namespace GcnReal

/-- Every entry of the array is a real number. -/
def IsReal {ι : Type*} (v : ι → EReal) : Prop := ∃ f : ι → ℝ, ∀ i, v i = (f i : EReal)

/-- A finite sum of reals, read in the extended reals, is the sum of the readings. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW. Over real data, summing the edges' transformed rows with their coefficients is transforming the
    summed rows: `∑ e, (∑ j, a e j · W j) · n e = ∑ j, (∑ e, a e j · n e) · W j`. -/
theorem agg_mul_comm {E : Type*} (s : Finset E) (a : E → Fin 128 → ℝ) (n : E → ℝ) (W : Fin 128 → ℝ) :
    (∑ e ∈ s, (∑ j : Fin 128, (a e j : EReal) * (W j : EReal)) * (n e : EReal))
      = ∑ j : Fin 128, (∑ e ∈ s, (a e j : EReal) * (n e : EReal)) * (W j : EReal) := by
  have hL : ∀ e, (∑ j : Fin 128, (a e j : EReal) * (W j : EReal)) * (n e : EReal)
      = (((∑ j : Fin 128, a e j * W j) * n e : ℝ) : EReal) := by
    intro e
    rw [EReal.coe_mul, coe_sum]
    simp only [EReal.coe_mul]
  have hR : ∀ j : Fin 128, (∑ e ∈ s, (a e j : EReal) * (n e : EReal)) * (W j : EReal)
      = (((∑ e ∈ s, a e j * n e) * W j : ℝ) : EReal) := by
    intro j
    rw [EReal.coe_mul, coe_sum]
    simp only [EReal.coe_mul]
  rw [Finset.sum_congr rfl (fun e _ => hL e), Finset.sum_congr rfl (fun j _ => hR j), ← coe_sum, ← coe_sum]
  congr 1
  simp only [Finset.sum_mul]
  rw [Finset.sum_comm]
  refine Finset.sum_congr rfl fun j _ => Finset.sum_congr rfl fun e _ => ?_
  ring

/-- A real plus a real is a real, entry by entry. -/
theorem IsReal.add {ι : Type*} {u v : ι → EReal} (hu : IsReal u) (hv : IsReal v) : IsReal (fun i => u i + v i) := by
  obtain ⟨f, hf⟩ := hu
  obtain ⟨g, hg⟩ := hv
  refine ⟨fun i => f i + g i, fun i => ?_⟩
  show u i + v i = ((f i + g i : ℝ) : EReal)
  rw [hf, hg, EReal.coe_add]

/-- The maximum of a real with zero is a real, entry by entry. -/
theorem IsReal.max_zero {ι : Type*} {v : ι → EReal} (hv : IsReal v) : IsReal (fun i => max (v i) 0) := by
  obtain ⟨f, hf⟩ := hv
  refine ⟨fun i => max (f i) 0, fun i => ?_⟩
  show max (v i) 0 = ((max (f i) 0 : ℝ) : EReal)
  rw [hf]
  exact (EReal.coe_strictMono.monotone.map_max (a := f i) (b := 0)).symm

end GcnReal

end
-- ==== Proof.Layer.lean ====
/-
  One graph-convolution layer, in its two arrangements, over abstract edge data.

  Every node `p` has a finite set `S p` of edges whose messages land on it, every edge `e` reads the row
  `r e` and carries a coefficient `nrm e`. The reference transforms first and aggregates afterwards:
  entry (p, q) is `∑ e ∈ S p, (a·W)[r e, q] · nrm e`. The kernel aggregates first and transforms afterwards:
  `∑ k, (∑ e ∈ S p, a[r e, k] · nrm e) · W[k, q]`. On real data the two are equal (the law of Reals.lean), and the
  result is again real, which is what lets the next layer use the law again.
-/
import proofs.«426604_j62036507623981_4_alg».proof.Proof.GcnSpec
import proofs.«426604_j62036507623981_4_alg».proof.Proof.Reals

noncomputable section

open scoped BigOperators

namespace GcnLayer

open Idealize.ShloMosaic Idealize.ShloMosaic.ValueIdx GcnSpec GcnReal

variable (S : Fin 100000 → Finset (Fin 1700000)) (r : Fin 1700000 → Fin 100000)

/-- Transform-then-aggregate is aggregate-then-transform, at one entry, on real data. `aw` is the transformed
    array, known entry by entry as the inner product of a row of `a` with a column of `W`. -/
theorem aggregate_comm (a : SN.Idx → EReal) (W : SW.Idx → EReal) (nrm : Fin 1700000 → EReal)
    (ha : IsReal a) (hW : IsReal W) (hn : IsReal nrm)
    (aw : SN.Idx → EReal) (haw : ∀ p q, aw (ix2 p q) = ∑ k : Fin 128, a (ix2 p k) * W (ix2 k q))
    (p : Fin 100000) (q : Fin 128) :
    (∑ e ∈ S p, aw (ix2 (r e) q) * nrm e)
      = ∑ k : Fin 128, (∑ e ∈ S p, a (ix2 (r e) k) * nrm e) * W (ix2 k q) := by
  obtain ⟨fa, hfa⟩ := ha
  obtain ⟨fW, hfW⟩ := hW
  obtain ⟨fn, hfn⟩ := hn
  have h := agg_mul_comm (S p) (fun e k => fa (ix2 (r e) k)) fn (fun k => fW (ix2 k q))
  simp only [haw, hfa, hfW, hfn]
  exact h

/-- The aggregated array of real data with real coefficients is real. -/
theorem aggregate_isReal (a : SN.Idx → EReal) (nrm : Fin 1700000 → EReal) (ha : IsReal a) (hn : IsReal nrm)
    (g : SN.Idx → EReal) (hg : ∀ p k, g (ix2 p k) = ∑ e ∈ S p, a (ix2 (r e) k) * nrm e) : IsReal g := by
  obtain ⟨fa, hfa⟩ := ha
  obtain ⟨fn, hfn⟩ := hn
  refine ⟨fun i => ∑ e ∈ S (i 0), fa (ix2 (r e) (i 1)) * fn e, fun i => ?_⟩
  obtain ⟨p, k, rfl⟩ : ∃ (p : Fin 100000) (k : Fin 128), i = ix2 p k := ⟨i 0, i 1, eq_ix2 i⟩
  show g (ix2 p k) = ((∑ e ∈ S p, fa (ix2 (r e) k) * fn e : ℝ) : EReal)
  rw [hg, coe_sum]
  refine Finset.sum_congr rfl fun e _ => ?_
  rw [hfa, hfn, EReal.coe_mul]

/-- The dense transform of real arrays is real. -/
theorem dense_isReal (A : SN.Idx → EReal) (W : SW.Idx → EReal) (b : SB.Idx → EReal)
    (hA : IsReal A) (hW : IsReal W) (hb : IsReal b) : IsReal (dense A W b) := by
  obtain ⟨fA, hfA⟩ := hA
  obtain ⟨fW, hfW⟩ := hW
  obtain ⟨fb, hfb⟩ := hb
  refine ⟨fun i => (∑ k : Fin 128, fA (ix2 (i 0) k) * fW (ix2 k (i 1))) + fb (ix1 (i 1)), fun i => ?_⟩
  obtain ⟨p, q, rfl⟩ : ∃ (p : Fin 100000) (q : Fin 128), i = ix2 p q := ⟨i 0, i 1, eq_ix2 i⟩
  show dense A W b (ix2 p q) = (((∑ k : Fin 128, fA (ix2 p k) * fW (ix2 k q)) + fb (ix1 q) : ℝ) : EReal)
  rw [dense_ix2, EReal.coe_add, coe_sum, hfb]
  congr 1
  refine Finset.sum_congr rfl fun k _ => ?_
  rw [hfA, hfW, EReal.coe_mul]

/-- And so is its maximum with zero. -/
theorem denseRelu_isReal (A : SN.Idx → EReal) (W : SW.Idx → EReal) (b : SB.Idx → EReal)
    (hA : IsReal A) (hW : IsReal W) (hb : IsReal b) : IsReal (denseRelu A W b) :=
  (dense_isReal A W b hA hW hb).max_zero

end GcnLayer

end
-- ==== Proof.RowGather.lean ====
/-
  The row gather: what `x[idx]` along axis 0 of a `[100000, 128]` array at `1700000` integer indices lowers to,
  read at one element. Result element `(e, c)` is the operand at row `idx[e, 0]` (read signed, clamped into the
  rows) and column `c`.
-/
import Idealize.ShloMosaic.PureOps.Ideal
import Idealize.ShloMosaic.PureOps.ShapeOps
import Idealize.ShloMosaic.PureOps.Dims
import Idealize.ShloMosaic.Lib.ValueIdx

noncomputable section

namespace GcnIdx

open Idealize.ShloMosaic Idealize.ShloMosaic.ValueIdx

/-- The dimension numbers of the row gather: axis 1 of the result is the one offset axis (the column), axis 0 of the
    operand is collapsed (one row per index) and is the axis the start index names; the start indices `[1700000, 1]`
    carry their one component on axis 1; a slice is one row, `[1, 128]`. -/
abbrev rowGatherDims (wf : GatherDims.WF ⟨2, ![100000, 128]⟩ ⟨2, ![1700000, 1]⟩ ⟨2, ![1700000, 128]⟩ [1] [0] [] [0] [] 1 ![1, 128]) :
    GatherDims ⟨2, ![100000, 128]⟩ ⟨2, ![1700000, 1]⟩ ⟨2, ![1700000, 128]⟩ where
  offsetDims := [1]
  collapsedSliceDims := [0]
  operandBatchingDims := []
  startIndicesBatchingDims := []
  startIndexMap := [0]
  indexVectorDim := 1
  sliceSizes := ![1, 128]
  wf := wf

/-- The row an edge reads: the start index read signed and clamped into `[0, 99999]`. -/
def rowOf {w : Nat} (idx : IVec ⟨2, ![1700000, 1]⟩ w) (e : Fin 1700000) : Fin 100000 :=
  ⟨min (idx (ix2 e 0)).toInt.toNat 99999, by omega⟩

/-- THE ROW GATHER READ AT `(e, c)`: the operand at the clamped row of edge `e`, column `c`. -/
theorem rowGather_apply {α : Type} {w : Nat}
    (wf : GatherDims.WF ⟨2, ![100000, 128]⟩ ⟨2, ![1700000, 1]⟩ ⟨2, ![1700000, 128]⟩ [1] [0] [] [0] [] 1 ![1, 128])
    (x : (⟨2, ![100000, 128]⟩ : Shape).Idx → α) (idx : IVec ⟨2, ![1700000, 1]⟩ w) (e : Fin 1700000) (c : Fin 128) :
    Host.gather (rowGatherDims wf) x idx (ix2 e c) = x (ix2 (rowOf idx e) c) := by
  unfold Host.gather
  congr 1
  funext a
  refine Fin.ext ?_
  show (rowGatherDims wf).start (ix2 e c) idx a + (rowGatherDims wf).batchCoord (ix2 e c) a
    + (rowGatherDims wf).offCoord (ix2 e c) a = _
  rw [GatherDims.batchCoord_eq_zero _ _ _ List.not_mem_nil, Nat.add_zero]
  match a with
  | ⟨0, _⟩ =>
    show (rowGatherDims wf).start (ix2 e c) idx 0 + (rowGatherDims wf).offCoord (ix2 e c) 0 = (rowOf idx e).val
    rw [GatherDims.offCoord_eq_zero _ _ _
      (fun h => ((GatherDims.mem_sKept _ _).mp h).1 (List.mem_singleton.mpr rfl)), Nat.add_zero]
    unfold GatherDims.start
    rw [dif_pos (show (0 : Fin 2) ∈ (rowGatherDims wf).startIndexMap from List.mem_singleton.mpr rfl)]
    have hsi : (rowGatherDims wf).siIdx (ix2 e c) ⟨List.idxOf (0 : Fin 2) (rowGatherDims wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims wf).start (ix2 e c) idx 1 + (rowGatherDims wf).offCoord (ix2 e c) 1 = c.val
    have hs : (rowGatherDims wf).start (ix2 e c) idx 1 = 0 := by
      unfold GatherDims.start
      rw [dif_neg (show (1 : Fin 2) ∉ ([0] : List (Fin 2)) by decide)]
    rw [hs, Nat.zero_add]
    unfold GatherDims.offCoord
    rw [dif_pos ((GatherDims.mem_sKept _ _).2
      ⟨show (1 : Fin 2) ∉ ([0] : List (Fin 2)) by decide, List.not_mem_nil⟩)]
    rfl

end GcnIdx

end
-- ==== Proof.RowScatter.lean ====
/-
  The row scatter-add: what a segment sum of `[1700000, 128]` rows into `[100000, 128]` lowers to, read at one
  element. Update element `(e, c)` lands on operand element `(idx[e, 0], c)`, the index read signed and NOT clamped;
  an update whose row index is outside `[0, 100000)` is dropped. So the result at `(i, c)` is the operand there plus
  the sum, over the edges `e` whose index is `i`, of the update's `(e, c)`.
-/
import Idealize.ShloMosaic.PureOps.Ideal
import Idealize.ShloMosaic.PureOps.ShapeOps
import Idealize.ShloMosaic.PureOps.Dims
import Idealize.ShloMosaic.Lib.ValueIdx

noncomputable section

open scoped BigOperators

namespace GcnIdx

open Idealize.ShloMosaic Idealize.ShloMosaic.ValueIdx

/-- The dimension numbers of the row scatter: axis 1 of the updates is the one window axis (the column), axis 0 of
    the operand is the inserted window axis (one row per index) and the axis the scatter index names; the scatter
    indices `[1700000, 1]` carry their one component on axis 1. -/
abbrev rowScatterDims (wf : ScatterDims.WF ⟨2, ![100000, 128]⟩ ⟨2, ![1700000, 1]⟩ ⟨2, ![1700000, 128]⟩ [1] [0] [0] 1) :
    ScatterDims ⟨2, ![100000, 128]⟩ ⟨2, ![1700000, 1]⟩ ⟨2, ![1700000, 128]⟩ where
  updateWindowDims := [1]
  insertedWindowDims := [0]
  scatterDimsToOperandDims := [0]
  indexVectorDim := 1
  wf := wf

/-- The row an edge's message lands on: its index read signed and NOT clamped; `none` when outside
    `[0, 100000)`. -/
def landsAt {w : Nat} (idx : IVec ⟨2, ![1700000, 1]⟩ w) (e : Fin 1700000) : Option (Fin 100000) :=
  if h : 0 ≤ (idx (ix2 e 0)).toInt ∧ (idx (ix2 e 0)).toInt < 100000 then
    some ⟨(idx (ix2 e 0)).toInt.toNat, by omega⟩
  else none

section Coords
variable {w : Nat} (wf : ScatterDims.WF ⟨2, ![100000, 128]⟩ ⟨2, ![1700000, 1]⟩ ⟨2, ![1700000, 128]⟩ [1] [0] [0] 1)
  (idx : IVec ⟨2, ![1700000, 1]⟩ w) (e : Fin 1700000) (c : Fin 128)

/-- On the row axis the window starts at the edge's index, read signed. -/
theorem start_row : (rowScatterDims wf).start (ix2 e c) idx 0 = (idx (ix2 e 0)).toInt := by
  unfold ScatterDims.start
  rw [dif_pos (show (0 : Fin 2) ∈ (rowScatterDims wf).scatterDimsToOperandDims from List.mem_singleton.mpr rfl)]
  have hsi : (rowScatterDims wf).siIdx (ix2 e c) ⟨List.idxOf (0 : Fin 2) (rowScatterDims wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at `0`: the scatter index does not name it. -/
theorem start_col : (rowScatterDims wf).start (ix2 e c) idx 1 = 0 := by
  unfold ScatterDims.start
  rw [dif_neg (show (1 : Fin 2) ∉ ([0] : List (Fin 2)) by decide)]

/-- The row axis is inserted: no window coordinate. -/
theorem window_row : (rowScatterDims wf).window (ix2 e c) 0 = 0 := by
  unfold ScatterDims.window
  rw [dif_neg (show (0 : Fin 2) ∉ (⟨2, ![100000, 128]⟩ : Shape).kept ([0] : List (Fin 2)) by decide)]

/-- The column axis carries the update's column. -/
theorem window_col : (rowScatterDims wf).window (ix2 e c) 1 = c.val := by
  unfold ScatterDims.window
  rw [dif_pos (show (1 : Fin 2) ∈ (⟨2, ![100000, 128]⟩ : Shape).kept ([0] : List (Fin 2)) by decide)]
  rfl

end Coords

/-- WHERE AN UPDATE LANDS: update element `(e, c)` lands on `(landsAt idx e, c)`, or nowhere. -/
theorem rowScatter_resultIdx {w : Nat}
    (wf : ScatterDims.WF ⟨2, ![100000, 128]⟩ ⟨2, ![1700000, 1]⟩ ⟨2, ![1700000, 128]⟩ [1] [0] [0] 1)
    (idx : IVec ⟨2, ![1700000, 1]⟩ w) (e : Fin 1700000) (c : Fin 128) :
    (rowScatterDims wf).resultIdx? (ix2 e c) idx = (landsAt idx e).map (fun i => ix2 i c) := by
  have hz0 : ((⟨2, ![100000, 128]⟩ : Shape).size 0 : Int) = 100000 := rfl
  have hz1 : ((⟨2, ![100000, 128]⟩ : Shape).size 1 : Int) = 128 := rfl
  unfold ScatterDims.resultIdx? landsAt
  by_cases h : 0 ≤ (idx (ix2 e 0)).toInt ∧ (idx (ix2 e 0)).toInt < 100000
  · have hall : ∀ a : Fin 2, 0 ≤ (rowScatterDims wf).start (ix2 e c) idx a + (rowScatterDims wf).window (ix2 e c) a
        ∧ (rowScatterDims wf).start (ix2 e c) idx a + (rowScatterDims wf).window (ix2 e c) a
          < (⟨2, ![100000, 128]⟩ : Shape).size a := by
      intro a
      match a with
      | ⟨0, _⟩ =>
        show 0 ≤ (rowScatterDims wf).start (ix2 e c) idx 0 + (rowScatterDims wf).window (ix2 e c) 0
          ∧ (rowScatterDims wf).start (ix2 e c) idx 0 + (rowScatterDims wf).window (ix2 e c) 0
            < ((⟨2, ![100000, 128]⟩ : Shape).size 0 : Int)
        rw [start_row, window_row, hz0]; omega
      | ⟨1, _⟩ =>
        show 0 ≤ (rowScatterDims wf).start (ix2 e c) idx 1 + (rowScatterDims wf).window (ix2 e c) 1
          ∧ (rowScatterDims wf).start (ix2 e c) idx 1 + (rowScatterDims wf).window (ix2 e c) 1
            < ((⟨2, ![100000, 128]⟩ : Shape).size 1 : Int)
        rw [start_col, window_col, hz1]; have := c.isLt; omega
    rw [dif_pos hall, dif_pos h, Option.map_some]
    congr 1
    funext a
    refine Fin.ext ?_
    match a with
    | ⟨0, _⟩ =>
      show ((rowScatterDims wf).start (ix2 e c) idx 0 + (rowScatterDims wf).window (ix2 e c) 0).toNat
        = (idx (ix2 e 0)).toInt.toNat
      rw [start_row, window_row]; simp
    | ⟨1, _⟩ =>
      show ((rowScatterDims wf).start (ix2 e c) idx 1 + (rowScatterDims wf).window (ix2 e c) 1).toNat = c.val
      rw [start_col, window_col]; simp
  · rw [dif_neg h, Option.map_none, dif_neg]
    intro hall
    have h0 := hall 0
    rw [start_row, window_row, hz0] at h0
    exact h (by omega)

/-- An update element lands on `(i, c)` exactly when its column is `c` and its edge's index is `i`. -/
theorem rowScatter_lands_iff {w : Nat}
    (wf : ScatterDims.WF ⟨2, ![100000, 128]⟩ ⟨2, ![1700000, 1]⟩ ⟨2, ![1700000, 128]⟩ [1] [0] [0] 1)
    (idx : IVec ⟨2, ![1700000, 1]⟩ w) (e : Fin 1700000) (c' : Fin 128) (i : Fin 100000) (c : Fin 128) :
    (rowScatterDims wf).resultIdx? (ix2 e c') idx = some (ix2 i c) ↔ landsAt idx e = some i ∧ c' = c := by
  rw [rowScatter_resultIdx]
  cases hl : landsAt idx e with
  | none => simp
  | some i' =>
    rw [Option.map_some, Option.some.injEq, Option.some.injEq]
    constructor
    · intro h2
      exact ⟨congrFun h2 0, congrFun h2 1⟩
    · rintro ⟨rfl, rfl⟩; rfl

/-- THE ROW SCATTER-ADD READ AT `(i, c)`: the operand there plus the sum, over the edges landing on row `i`, of
    the update's column `c`. -/
theorem rowScatterAdd_apply {w : Nat}
    (wf : ScatterDims.WF ⟨2, ![100000, 128]⟩ ⟨2, ![1700000, 1]⟩ ⟨2, ![1700000, 128]⟩ [1] [0] [0] 1)
    (z : (⟨2, ![100000, 128]⟩ : Shape).Idx → EReal) (idx : IVec ⟨2, ![1700000, 1]⟩ w)
    (upd : (⟨2, ![1700000, 128]⟩ : Shape).Idx → EReal) (i : Fin 100000) (c : Fin 128) :
    Ideal.hostScatterAdd (rowScatterDims wf) z idx upd (ix2 i c)
      = z (ix2 i c) + ∑ e ∈ Finset.univ.filter (fun e : Fin 1700000 => landsAt idx e = some i), upd (ix2 e c) := by
  show z (ix2 i c) + ∑ j ∈ Finset.univ.filter
      (fun j => (rowScatterDims wf).resultIdx? j idx = some (ix2 i c)), upd j = _
  refine congrArg (fun t => z (ix2 i c) + t) ?_
  rw [Finset.sum_filter, sum_idx2, Finset.sum_filter]
  refine Finset.sum_congr rfl fun e _ => ?_
  by_cases h : landsAt idx e = some i
  · rw [if_pos h, Finset.sum_eq_single c]
    · rw [if_pos ((rowScatter_lands_iff wf idx e c i c).2 ⟨h, rfl⟩)]
    · intro c' _ hc
      rw [if_neg (fun hh => hc ((rowScatter_lands_iff wf idx e c' i c).1 hh).2)]
    · intro hc; exact absurd (Finset.mem_univ c) hc
  · rw [if_neg h]
    refine Finset.sum_eq_zero fun c' _ => ?_
    rw [if_neg (fun hh => h ((rowScatter_lands_iff wf idx e c' i c).1 hh).1)]

end GcnIdx

end
-- ==== Proof.LayerOps.lean ====
/-
  One layer over the host's own gather and scatter-add.

  The aggregation both programs compute is  scatterAdd(0, dst, gather(a, src) · nb):  entry (p, k) is the sum, over
  the edges whose destination index lands on node p, of a[row read by the edge, k] times the edge's coefficient
  (`aggregate_apply`: the scatter-add at an index, then the gather at an index). With that reading the reference's
  arrangement -- gather rows of a·W, scale, scatter-add, add the bias -- is the dense transform of the kernel's
  aggregated array (`transform_first_eq`), by the law of Layer.lean on real data.
-/
import proofs.«426604_j62036507623981_4_alg».proof.Proof.Layer
import proofs.«426604_j62036507623981_4_alg».proof.Proof.RowGather
import proofs.«426604_j62036507623981_4_alg».proof.Proof.RowScatter

noncomputable section

open scoped BigOperators

namespace GcnLayer

open Idealize.ShloMosaic Idealize.ShloMosaic.ValueIdx GcnSpec GcnReal GcnIdx

variable (wfG : GatherDims.WF SN SC SE [1] [0] [] [0] [] 1 ![1, 128]) (wfS : ScatterDims.WF SN SC SE [1] [0] [0] 1)

/-- The edges whose message lands on node `p`. -/
abbrev edgesOf (didx : IVec SC 32) (p : Fin 100000) : Finset (Fin 1700000) :=
  Finset.univ.filter (fun e : Fin 1700000 => landsAt didx e = some p)

/-- The aggregated array at an entry: over the edges landing on `p`, the row each reads, at column `k`, times the
    edge's coefficient. -/
theorem aggregate_apply (Z : FVec Ideal SN .f32) (hZ : ∀ i, Z i = 0) (a : FVec Ideal SN .f32) (sidx didx : IVec SC 32)
    (nb : FVec Ideal SE .f32) (nrm : Fin 1700000 → EReal) (hnb : ∀ e c, nb (ix2 e c) = nrm e)
    (p : Fin 100000) (k : Fin 128) :
    Host.scatterAdd (rowScatterDims wfS) Z didx (mulf (Host.gather (rowGatherDims wfG) a sidx) nb) (ix2 p k)
      = ∑ e ∈ edgesOf didx p, a (ix2 (rowOf sidx e) k) * nrm e := by
  show Ideal.hostScatterAdd (rowScatterDims wfS) Z didx (mulf (Host.gather (rowGatherDims wfG) a sidx) nb) (ix2 p k) = _
  rw [rowScatterAdd_apply, hZ, zero_add]
  refine Finset.sum_congr rfl fun e _ => ?_
  show Host.gather (rowGatherDims wfG) a sidx (ix2 e k) * nb (ix2 e k) = _
  rw [rowGather_apply, hnb]

/-- The aggregated array of real data is real. -/
theorem aggregate_real (Z : FVec Ideal SN .f32) (hZ : ∀ i, Z i = 0) (a : FVec Ideal SN .f32) (sidx didx : IVec SC 32)
    (nb : FVec Ideal SE .f32) (nrm : Fin 1700000 → EReal) (hnb : ∀ e c, nb (ix2 e c) = nrm e)
    (ha : IsReal a) (hn : IsReal nrm) :
    IsReal (Host.scatterAdd (rowScatterDims wfS) Z didx (mulf (Host.gather (rowGatherDims wfG) a sidx) nb)) :=
  aggregate_isReal (edgesOf didx) (rowOf sidx) a nrm ha hn _
    (fun p k => aggregate_apply wfG wfS Z hZ a sidx didx nb nrm hnb p k)

/-- TRANSFORM FIRST = AGGREGATE FIRST. `aw` is the transformed array a·W (entry by entry the inner product), `bb` the
    bias spread over the rows. On real `a`, `W` and coefficients the reference's layer is the dense transform of the
    kernel's aggregated array. -/
theorem transform_first_eq (Z : FVec Ideal SN .f32) (hZ : ∀ i, Z i = 0) (a : FVec Ideal SN .f32) (W : FVec Ideal SW .f32)
    (b : FVec Ideal SB .f32) (sidx didx : IVec SC 32) (nb : FVec Ideal SE .f32) (nrm : Fin 1700000 → EReal)
    (hnb : ∀ e c, nb (ix2 e c) = nrm e) (ha : IsReal a) (hW : IsReal W) (hn : IsReal nrm)
    (aw : FVec Ideal SN .f32) (haw : ∀ p q, aw (ix2 p q) = ∑ k : Fin 128, a (ix2 p k) * W (ix2 k q))
    (bb : FVec Ideal SN .f32) (hbb : ∀ p q, bb (ix2 p q) = b (ix1 q)) :
    addf (Host.scatterAdd (rowScatterDims wfS) Z didx (mulf (Host.gather (rowGatherDims wfG) aw sidx) nb)) bb
      = dense (Host.scatterAdd (rowScatterDims wfS) Z didx (mulf (Host.gather (rowGatherDims wfG) a sidx) nb)) W b := by
  funext i
  obtain ⟨p, q, rfl⟩ : ∃ (p : Fin 100000) (q : Fin 128), i = ix2 p q := ⟨i 0, i 1, eq_ix2 i⟩
  show Host.scatterAdd (rowScatterDims wfS) Z didx (mulf (Host.gather (rowGatherDims wfG) aw sidx) nb) (ix2 p q)
      + bb (ix2 p q) = _
  rw [dense_ix2, hbb, aggregate_apply wfG wfS Z hZ aw sidx didx nb nrm hnb p q,
    aggregate_comm (edgesOf didx) (rowOf sidx) a W nrm ha hW hn aw haw p q]
  refine congrArg (· + b (ix1 q)) ?_
  refine Finset.sum_congr rfl fun k _ => ?_
  rw [aggregate_apply wfG wfS Z hZ a sidx didx nb nrm hnb p k]

end GcnLayer

end
-- ==== Proof.RefStages.lean ====
/-
  The reference program's result, layer by layer.

  Read at an index, the reference's stages are: a zero array; the edge coefficients spread over the 128 columns; the
  bias row spread over the nodes; the matrix product as an inner product of a row and a column; the maximum with a
  zero array. With these readings each of its three layers -- transform, aggregate, add the bias -- is the dense
  transform of the aggregated activations (LayerOps.lean's law, which needs the activations, the weights and the
  edge coefficients real), and the first two are followed by the maximum with zero. The activations stay real from
  layer to layer, so the law applies three times.
-/
import proofs.«426604_j62036507623981_4_alg».proof.Proof.RefAgg
import proofs.«426604_j62036507623981_4_alg».proof.Proof.LayerOps

noncomputable section

open scoped BigOperators

namespace Cert.ReferenceIdeal.Hand

open Cert.ReferenceIdeal Cert.ReferenceIdeal.Gen Cert.ReferenceIdeal.Read Idealize.ShloMosaic Idealize.ShloMosaic.ValueIdx
open GcnSpec GcnReal GcnLayer GcnIdx

/-- The edge list, the activations, a weight matrix, a bias row, as the reference's stages take them. -/
abbrev Edges := (⟨S2x1600000, .i32⟩ : BufTy).Contents (Elt Ideal)
abbrev Nodes := (⟨S100000x128, .f32⟩ : BufTy).Contents (Elt Ideal)
abbrev Weights := (⟨S128x128, .f32⟩ : BufTy).Contents (Elt Ideal)
abbrev Bias := (⟨S128, .f32⟩ : BufTy).Contents (Elt Ideal)

/-- One coefficient per edge. -/
def coeff (x1 : Edges) : Fin 1700000 → EReal := fun e => val_main_v29 (F := Ideal) x1 (ix1 e)

/-! ## The stages read at an index -/

/-- The array the scatter-add starts from is zero everywhere. -/
theorem zeros_apply (i : S100000x128.Idx) : val_main_v41 (F := Ideal) i = 0 := by
  rw [val_main_v41_apply, val_main_cst_8_apply]
  exact Ideal.ofBits_zero_f32

/-- The coefficient array holds edge `e`'s coefficient in every column of row `e`. -/
theorem spread_apply (x1 : Edges) (e : Fin 1700000) (c : Fin 128) :
    val_main_v39 (F := Ideal) x1 (ix2 e c) = coeff x1 e := by
  rw [val_main_v39_apply, val_main_v38_apply]
  exact congrArg (val_main_v29 (F := Ideal) x1) (funext fun a => by match a with | ⟨0, _⟩ => exact Fin.ext rfl)

/-- The bias array holds the bias's entry `q` in column `q` of every row. -/
theorem bias_apply (b : Bias) (p : Fin 100000) (q : Fin 128) : val_main_v45 (F := Ideal) b (ix2 p q) = b (ix1 q) := by
  rw [val_main_v45_apply, val_main_v44_apply]
  exact congrArg b (funext fun a => by match a with | ⟨0, _⟩ => exact Fin.ext rfl)

/-- The matrix product at an entry is the inner product of the row and the column. -/
theorem product_apply (a : Nodes) (W : Weights) (p : Fin 100000) (q : Fin 128) :
    val_main_v30 (F := Ideal) a W (ix2 p q) = ∑ k : Fin 128, a (ix2 p k) * W (ix2 k q) := by
  rw [val_main_v30_apply]
  refine Finset.sum_congr rfl fun k _ => ?_
  have el : lidx_main_v30 (ix2 p q) k = ix2 p k :=
    funext fun d => by match d with | ⟨0, _⟩ => exact Fin.ext rfl | ⟨1, _⟩ => exact Fin.ext rfl
  have er : ridx_main_v30 (ix2 p q) k = ix2 k q :=
    funext fun d => by match d with | ⟨0, _⟩ => exact Fin.ext rfl | ⟨1, _⟩ => exact Fin.ext rfl
  rw [el, er]

/-- The zero array the maximum is taken with. -/
theorem reluZero_apply (i : S100000x128.Idx) : val_main_call1_v0 (F := Ideal) i = 0 := by
  rw [val_main_call1_v0_apply, val_main_call1_cst_apply]
  exact Ideal.ofBits_zero_f32

/-! ## One layer -/

/-- The aggregation of real activations with real coefficients is real. -/
theorem agg_isReal (x1 : Edges) (a : Nodes) (ha : IsReal a) (hn : IsReal (coeff x1)) : IsReal (agg x1 a) :=
  aggregate_real (gather_S100000x128_S1700000x1_S1700000x128_1_0_n_n_0_1_1128).wf
    (scatter_S100000x128_S1700000x1_S1700000x128_1_0_0_1).wf (val_main_v41 (F := Ideal)) zeros_apply a
    (val_main_v36 (F := Ideal) x1) (val_main_v42 (F := Ideal) x1) (val_main_v39 (F := Ideal) x1) (coeff x1)
    (spread_apply x1) ha hn

/-- THE REFERENCE'S LAYER is the dense transform of the aggregated activations, on real data. -/
theorem transformFirst_eq (x1 : Edges) (a : Nodes) (W : Weights) (b : Bias) (ha : IsReal a) (hW : IsReal W)
    (hn : IsReal (coeff x1)) : transformFirst x1 a W b = dense (agg x1 a) W b :=
  transform_first_eq (gather_S100000x128_S1700000x1_S1700000x128_1_0_n_n_0_1_1128).wf
    (scatter_S100000x128_S1700000x1_S1700000x128_1_0_0_1).wf (val_main_v41 (F := Ideal)) zeros_apply a W b
    (val_main_v36 (F := Ideal) x1) (val_main_v42 (F := Ideal) x1) (val_main_v39 (F := Ideal) x1) (coeff x1)
    (spread_apply x1) ha hW hn (val_main_v30 (F := Ideal) a W) (product_apply a W) (val_main_v45 (F := Ideal) b)
    (bias_apply b)

/-- The maximum of an array with the zero array, entry by entry. -/
theorem relu_eq (v : FVec Ideal S100000x128 .f32) : maximumf v (val_main_call1_v0 (F := Ideal)) = fun i => max (v i) 0 := by
  funext i
  show max (v i) (val_main_call1_v0 (F := Ideal) i) = _
  rw [reluZero_apply]

end Cert.ReferenceIdeal.Hand

end
-- ==== Proof.NormReal.lean ====
/-
  The edge coefficients are real numbers.

  A node's degree is zero plus a finite sum of ones: a real number. Its inverse square root is taken only where the
  degree is positive, and is then the real `(√d)⁻¹`; elsewhere the entry is zero. An edge's coefficient is the product
  of two entries of that array (a gather reads one entry of its operand, whichever the index says), so it is real.
  This is the one fact about the coefficients the layer law needs: on the extended reals distributivity fails at
  an infinity.
-/
import proofs.«426604_j62036507623981_4_alg».proof.Proof.RefStages

noncomputable section

open scoped BigOperators

namespace Cert.ReferenceIdeal.Hand

open Cert.ReferenceIdeal Cert.ReferenceIdeal.Gen Cert.ReferenceIdeal.Read Idealize.ShloMosaic Idealize.ShloMosaic.ValueIdx
open GcnSpec GcnReal

/-- A finite sum of real entries is a real number, whatever the finite set. -/
theorem sum_isReal {ι : Type*} (s : Finset ι) (f : ι → EReal) (hf : IsReal f) : ∃ r : ℝ, ∑ j ∈ s, f j = (r : EReal) := by
  obtain ⟨g, hg⟩ := hf
  exact ⟨∑ j ∈ s, g j, by rw [coe_sum]; exact Finset.sum_congr rfl fun j _ => hg j⟩

/-- The word of the float one denotes a real number: its exponent field is not all ones. -/
theorem one_word_real : ∃ r : ℝ, Ideal.ofBits .f32 0x3F800000#32 = (r : EReal) := by
  show ∃ r : ℝ, Ideal.ieee 8 23 (0x3F800000#32 : BitVec 32) = (r : EReal)
  unfold Ideal.ieee
  simp only []
  rw [if_neg (by decide)]
  split
  · exact ⟨_, rfl⟩
  · exact ⟨_, rfl⟩

/-- An entry of a scatter-add is real when the entry it starts from and every update are: it is that entry plus a
    finite sum of updates, whichever updates land there. -/
theorem scatterAdd_entry_real {s si su : Shape} (d : ScatterDims s si su) {w : Nat} (x : s.Idx → EReal) (idx : IVec si w)
    (upd : su.Idx → EReal) (i : s.Idx) (hx : ∃ r : ℝ, x i = (r : EReal)) (hu : IsReal upd) :
    ∃ r : ℝ, Ideal.hostScatterAdd d x idx upd i = (r : EReal) := by
  obtain ⟨a, ha⟩ := hx
  have key : ∀ t : Finset su.Idx, ∃ r : ℝ, x i + ∑ j ∈ t, upd j = (r : EReal) := fun t => by
    obtain ⟨r, hr⟩ := sum_isReal t upd hu
    exact ⟨a + r, by rw [ha, hr, EReal.coe_add]⟩
  unfold Ideal.hostScatterAdd
  exact key _

/-- The same for the host's scatter-add read at the exact instance. -/
theorem hostScatterAdd_entry_real {s si su : Shape} (d : ScatterDims s si su) {w : Nat} (x : FVec Ideal s .f32) (idx : IVec si w)
    (upd : FVec Ideal su .f32) (i : s.Idx) (hx : ∃ r : ℝ, x i = (r : EReal)) (hu : IsReal upd) :
    ∃ r : ℝ, Host.scatterAdd d x idx upd i = (r : EReal) :=
  scatterAdd_entry_real d x idx upd i hx hu

/-- A node's degree -- zero plus one for every edge landing on it -- is a real number. -/
theorem degree_real (x1 : Edges) (i : S100000.Idx) : ∃ d : ℝ, val_main_v10 (F := Ideal) x1 i = (d : EReal) := by
  obtain ⟨one, hone⟩ := one_word_real
  have hones : IsReal (val_main_v7 (F := Ideal)) :=
    ⟨fun _ => one, fun j => by rw [val_main_v7_apply, val_main_cst_apply]; exact hone⟩
  have hz : ∃ r : ℝ, val_main_v8 (F := Ideal) i = (r : EReal) :=
    ⟨0, by rw [val_main_v8_apply, val_main_cst_0_apply]; exact Ideal.ofBits_zero_f32⟩
  unfold val_main_v10
  exact hostScatterAdd_entry_real _ _ _ _ i hz hones

/-- The inverse square root of the degree where it is positive, zero elsewhere: a real number at every node. -/
theorem dinv_real (x1 : Edges) : IsReal (val_main_v14 (F := Ideal) x1) := by
  classical
  have key : ∀ i : S100000.Idx, ∃ r : ℝ, val_main_v14 (F := Ideal) x1 i = (r : EReal) := by
    intro i
    obtain ⟨d, hd⟩ := degree_real x1 i
    have hz11 : val_main_v11 (F := Ideal) i = 0 := by
      rw [val_main_v11_apply, val_main_cst_1_apply]; exact Ideal.ofBits_zero_f32
    have hz0 : val_main_call0_v1 (F := Ideal) i = ((0 : ℝ) : EReal) := by
      rw [val_main_call0_v1_apply, val_main_call0_v0_apply, val_main_cst_2_apply]; exact Ideal.ofBits_zero_f32
    rw [val_main_v14_apply, val_main_v12_apply, val_main_v13_apply, hd, hz11, hz0]
    show ∃ r : ℝ, Scalar.select (Ideal.cmp .ogt (d : EReal) 0) (Ideal.rsqrt (d : EReal)) ((0 : ℝ) : EReal) = (r : EReal)
    by_cases hpos : (0 : EReal) < (d : EReal)
    · have hb : Ideal.cmp .ogt (d : EReal) 0 = 1#1 := by
        unfold Ideal.cmp; simp [hpos]
      have hd0 : 0 < d := by exact_mod_cast hpos
      rw [hb, select_one, Ideal.rsqrt_coe, if_neg (not_lt.mpr hd0.le), if_neg hd0.ne']
      exact ⟨_, rfl⟩
    · have hb : Ideal.cmp .ogt (d : EReal) 0 = 0#1 := by
        unfold Ideal.cmp; simp [hpos]
      rw [hb, select_zero]
      exact ⟨_, rfl⟩
  exact ⟨fun i => (key i).choose, fun i => (key i).choose_spec⟩

/-- Every edge's coefficient is a real number. -/
theorem coeff_isReal (x1 : Edges) : IsReal (coeff x1) := by
  obtain ⟨f, hf⟩ := dinv_real x1
  refine ⟨fun e => f (gather_S100000_S1700000x1_S1700000_n_0_n_n_0_1_1.operandIdx (ix1 e) (val_main_v20 (F := Ideal) x1))
      * f (gather_S100000_S1700000x1_S1700000_n_0_n_n_0_1_1.operandIdx (ix1 e) (val_main_v27 (F := Ideal) x1)), fun e => ?_⟩
  show val_main_v29 (F := Ideal) x1 (ix1 e) = _
  rw [val_main_v29_apply, EReal.coe_mul, ← hf, ← hf]
  rfl

end Cert.ReferenceIdeal.Hand

end
-- ==== Proof.RefValue.lean ====
/-
  The reference program's value in closed form.

  Its three layers are three copies of one chain of stages. Each copy, stage by stage, is the layer function
  `transformFirst` of RefAgg.lean applied to the previous layer's output (the copies differ in the names of their
  intermediate stages, not in what the stages compute), the first two followed by the maximum with zero. On real
  inputs every layer is therefore the dense transform of the aggregated activations, and the whole result is

      dense (agg (denseRelu (agg (denseRelu (agg x) W1 b1)) W2 b2)) W3 b3 .
-/
import proofs.«426604_j62036507623981_4_alg».proof.Proof.RefStages
import proofs.«426604_j62036507623981_4_alg».proof.Proof.NormReal

noncomputable section

namespace Cert.ReferenceIdeal.Hand

open Cert.ReferenceIdeal Cert.ReferenceIdeal.Gen Cert.ReferenceIdeal.Read Idealize.ShloMosaic Idealize.ShloMosaic.ValueIdx
open GcnSpec GcnReal GcnLayer

section Stages

variable {F : FTy → Type} [FloatOps F]
variable (x0 : (⟨S100000x128, .f32⟩ : BufTy).Contents (Elt F)) (x1 : (⟨S2x1600000, .i32⟩ : BufTy).Contents (Elt F))
  (x2 : (⟨S128x128, .f32⟩ : BufTy).Contents (Elt F)) (x3 : (⟨S128, .f32⟩ : BufTy).Contents (Elt F))
  (x4 : (⟨S128x128, .f32⟩ : BufTy).Contents (Elt F)) (x5 : (⟨S128, .f32⟩ : BufTy).Contents (Elt F))
  (x6 : (⟨S128x128, .f32⟩ : BufTy).Contents (Elt F)) (x7 : (⟨S128, .f32⟩ : BufTy).Contents (Elt F))

/-- Layer 1 before its maximum is the layer function of the input. -/
theorem layer1_eq : val_main_v46 (F := F) x0 x1 x2 x3 = transformFirst x1 x0 x2 x3 := rfl

/-- Layer 1's output is the maximum of that with the zero array. -/
theorem out1_eq : val_main_v47 (F := F) x0 x1 x2 x3
    = maximumf (transformFirst x1 x0 x2 x3) (val_main_call1_v0 (F := F)) := rfl

/-- Layer 2 before its maximum is the layer function of layer 1's output. -/
theorem layer2_eq : val_main_v64 (F := F) x0 x1 x2 x3 x4 x5
    = transformFirst x1 (val_main_v47 (F := F) x0 x1 x2 x3) x4 x5 := rfl

/-- Layer 2's output. -/
theorem out2_eq : val_main_v65 (F := F) x0 x1 x2 x3 x4 x5
    = maximumf (transformFirst x1 (val_main_v47 (F := F) x0 x1 x2 x3) x4 x5) (val_main_call1_v0 (F := F)) := rfl

/-- Layer 3, the result, is the layer function of layer 2's output. -/
theorem layer3_eq : val_main_v82 (F := F) x0 x1 x2 x3 x4 x5 x6 x7
    = transformFirst x1 (val_main_v65 (F := F) x0 x1 x2 x3 x4 x5) x6 x7 := rfl

end Stages

/-- The whole network on arrays: aggregate, transform, three times, the maximum with zero after the first two. -/
def network (x1 : Edges) (x0 : Nodes) (W1 : Weights) (b1 : Bias) (W2 : Weights) (b2 : Bias) (W3 : Weights) (b3 : Bias) : Nodes :=
  dense (agg x1 (denseRelu (agg x1 (denseRelu (agg x1 x0) W1 b1)) W2 b2)) W3 b3

/-- THE REFERENCE'S RESULT, on real inputs, is the network. -/
theorem result_eq_network (x0 : Nodes) (x1 : Edges) (x2 : Weights) (x3 : Bias) (x4 : Weights) (x5 : Bias) (x6 : Weights) (x7 : Bias)
    (h0 : IsReal x0) (h2 : IsReal x2) (h3 : IsReal x3) (h4 : IsReal x4) (h5 : IsReal x5) (h6 : IsReal x6) :
    val_main_v82 (F := Ideal) x0 x1 x2 x3 x4 x5 x6 x7 = network x1 x0 x2 x3 x4 x5 x6 x7 := by
  have hn := coeff_isReal x1
  -- layer 1
  have e1 : val_main_v47 (F := Ideal) x0 x1 x2 x3 = denseRelu (agg x1 x0) x2 x3 := by
    rw [out1_eq, transformFirst_eq x1 x0 x2 x3 h0 h2 hn, relu_eq]; rfl
  have r1 : IsReal (denseRelu (agg x1 x0) x2 x3) := denseRelu_isReal _ _ _ (agg_isReal x1 x0 h0 hn) h2 h3
  -- layer 2
  have e2 : val_main_v65 (F := Ideal) x0 x1 x2 x3 x4 x5 = denseRelu (agg x1 (denseRelu (agg x1 x0) x2 x3)) x4 x5 := by
    rw [out2_eq, e1, transformFirst_eq x1 _ x4 x5 r1 h4 hn, relu_eq]; rfl
  have r2 : IsReal (denseRelu (agg x1 (denseRelu (agg x1 x0) x2 x3)) x4 x5) :=
    denseRelu_isReal _ _ _ (agg_isReal x1 _ r1 hn) h4 h5
  -- layer 3
  rw [layer3_eq, e2, transformFirst_eq x1 _ x6 x7 r2 h6 hn]
  rfl

end Cert.ReferenceIdeal.Hand

end
-- ==== Proof.KValue.lean ====
/-
  The idealized kernel program's value in closed form.

  The result buffer is the array region 2 leaves. Region 2 leaves the dense transform of the three arrays it found;
  the first of those is the aggregation of the array region 1 left, the other two are the third layer's weights and
  bias as launched; region 1 left the dense transform with its maximum of what it found, whose first array is the
  aggregation of what region 0 left; and region 0 found the aggregation of the input. Composed, the result is the
  same network of arrays the reference computes. No finiteness is used on this side: the kernel aggregates first,
  which is the order the network is written in.
-/
import proofs.«426604_j62036507623981_4_alg».proof.Proof.KRun
import proofs.«426604_j62036507623981_4_alg».proof.Proof.KHost
import proofs.«426604_j62036507623981_4_alg».proof.Proof.KRegion0
import proofs.«426604_j62036507623981_4_alg».proof.Proof.KRegion1
import proofs.«426604_j62036507623981_4_alg».proof.Proof.KRegion2
import proofs.«426604_j62036507623981_4_alg».proof.Proof.RefValue

noncomputable section

namespace Cert.KernelIdeal.Value

open Cert.KernelIdeal Idealize.ShloMosaic Idealize.ShloMosaic.TcCoe Idealize.SL.Sem

variable (m : (ℓ : Loc nD τ sig) → Buf (Elt Ideal) ℓ) (ρ : Dev nD → PrngReg)

/-- The result buffer after the run is the network of the launch arguments. -/
theorem result_eq_network (c : Dev nD) :
    Gen.W8 m ρ c (Proc.devRef .tc main_v71)
      = Cert.ReferenceIdeal.Hand.network (m ((c.tc : Thread nD τ).loc main_arg1)) (m ((c.tc : Thread nD τ).loc main_arg0))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  rw [HostValues.result_eq m ρ c, Region2.arrAt3 (Gen.V7 m ρ) c]
  unfold Region2.aggArr Region2.wArr Region2.bArr
  rw [HostValues.entry2_agg m ρ c, HostValues.entry2_w m ρ c, HostValues.entry2_b m ρ c, Region1.arrAt3 (Gen.V5 m ρ) c]
  unfold Region1.aggArr Region1.wArr Region1.bArr
  rw [HostValues.entry1_agg m ρ c, HostValues.entry1_w m ρ c, HostValues.entry1_b m ρ c, Region0.arrAt3 (Gen.V3 m ρ) c]
  unfold Region0.aggArr Region0.wArr Region0.bArr
  rw [HostValues.entry0_agg m ρ c, HostValues.entry0_w m ρ c, HostValues.entry0_b m ρ c]
  rfl

/-- The run of the idealized kernel program with its result at the network of the arguments. -/
theorem run : θ_run defs (onTc (τ := τ) (main (F := Ideal))) ⟨m, fun _ => 0, ρ⟩ (fun r => ∀ c : Dev nD,
      r.2.mem ((c.tc : Thread nD τ).loc main_v71)
        = Cert.ReferenceIdeal.Hand.network (m ((c.tc : Thread nD τ).loc main_arg1)) (m ((c.tc : Thread nD τ).loc main_arg0))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (result_eq_network m ρ c), (h c).2⟩)
    (Cert.KernelIdeal.RunValue.run_value (F := Ideal) m ρ)

end Cert.KernelIdeal.Value

end
-- ==== Proof.PreReal.lean ====
/-
  From the precondition to real numbers. The precondition says, of each of the seven floating-point arguments,
  that every entry has absolute value below the word 0x7F800000, which is +∞. An extended real whose absolute
  value is below +∞ is neither -∞ nor +∞, so it is a real number: each argument is an array of reals.
-/
import proofs.«426604_j62036507623981_4_alg».proof.Pre_finite_inputs
import proofs.«426604_j62036507623981_4_alg».proof.Proof.Reals
import Idealize.ShloMosaic.Lib.ReduceAll
import Idealize.ShloMosaic.Lib.ValueIdx
import Idealize.ShloMosaic.PureOps.Ideal.Laws

noncomputable section

namespace Cert.Pre_finite_inputs.Hand

open Idealize.ShloMosaic

/-- The word 0x7F800000 denotes +∞. -/
theorem inf_word : Ideal.ofBits .f32 0x7F800000#32 = ⊤ := by simp [Ideal.ofBits, Ideal.ieee]

/-- An extended real whose absolute value max x (-x) is below +∞ is a real number: at -∞ and at +∞ the absolute
    value is +∞. -/
theorem real_of_abs_lt_top (x : EReal) (h : max x (-x) < ⊤) : ∃ r : ℝ, x = (r : EReal) := by
  induction x using EReal.rec with
  | bot => simp at h
  | top => simp at h
  | coe r => exact ⟨r, rfl⟩

/-- A truth value that reads as the word 1 is true. -/
theorem ofBool_eq_one {b : Bool} (h : BitVec.ofBool b = 1#1) : b = true := by
  cases b
  · exact absurd h (by decide)
  · rfl

/-- If the comparison |x i| < y i holds at every index and y is +∞ everywhere, every entry of x is a real. -/
theorem isReal_of_all_lt {s : Shape} (x y : FVec Ideal s .f32) (hy : ∀ i, y i = Ideal.ofBits .f32 0x7F800000#32)
    (h : ∀ i, cmpf .olt (Host.absf x) y i = 1#1) : GcnReal.IsReal x := by
  have hr : ∀ i, ∃ r : ℝ, x i = (r : EReal) := fun i => by
    have e : Ideal.cmp .olt (max (x i) (-(x i))) (y i) = 1#1 := h i
    rw [hy, inf_word] at e
    have hlt : max (x i) (-(x i)) < ⊤ := of_decide_eq_true (ofBool_eq_one e)
    exact real_of_abs_lt_top _ hlt
  choose f hf using hr
  exact ⟨f, hf⟩

/-- The shape with no axis has one index. -/
instance : Subsingleton S_.Idx := ⟨fun a b => funext fun d => d.elim0⟩

variable [Cert.Pre_finite_inputs.Facts]

/-- THE PRECONDITION, READ: each of the seven floating-point arguments is an array of real numbers. -/
theorem isReal_of_pre (x0 : FVec Ideal S100000x128 .f32) (x1 : IVec S2x1600000 32) (x2 : FVec Ideal S128x128 .f32) (x3 : FVec Ideal S128 .f32) (x4 : FVec Ideal S128x128 .f32) (x5 : FVec Ideal S128 .f32) (x6 : FVec Ideal S128x128 .f32) (x7 : FVec Ideal S128 .f32)
    (h : Cert.Pre_finite_inputs.fn (F := Ideal) x0 x1 x2 x3 x4 x5 x6 x7 = fun _ => 1#1) :
    GcnReal.IsReal x0 ∧ GcnReal.IsReal x2 ∧ GcnReal.IsReal x3 ∧ GcnReal.IsReal x4 ∧ GcnReal.IsReal x5 ∧ GcnReal.IsReal x6 ∧ GcnReal.IsReal x7 := by
  have h0 := congrFun h ValueIdx.ix0
  dsimp only [fn, fn_part1] at h0
  obtain ⟨h6, c7⟩ := IntOp.andi_eq_one.1 h0
  obtain ⟨h5, c6⟩ := IntOp.andi_eq_one.1 h6
  obtain ⟨h4, c5⟩ := IntOp.andi_eq_one.1 h5
  obtain ⟨h3, c4⟩ := IntOp.andi_eq_one.1 h4
  obtain ⟨h2, c3⟩ := IntOp.andi_eq_one.1 h3
  obtain ⟨c0, c2⟩ := IntOp.andi_eq_one.1 h2
  exact ⟨isReal_of_all_lt x0 _ (fun _ => rfl) (Host.reduce_andi_all _ _ _ _ _ c0),
    isReal_of_all_lt x2 _ (fun _ => rfl) (Host.reduce_andi_all _ _ _ _ _ c2),
    isReal_of_all_lt x3 _ (fun _ => rfl) (Host.reduce_andi_all _ _ _ _ _ c3),
    isReal_of_all_lt x4 _ (fun _ => rfl) (Host.reduce_andi_all _ _ _ _ _ c4),
    isReal_of_all_lt x5 _ (fun _ => rfl) (Host.reduce_andi_all _ _ _ _ _ c5),
    isReal_of_all_lt x6 _ (fun _ => rfl) (Host.reduce_andi_all _ _ _ _ _ c6),
    isReal_of_all_lt x7 _ (fun _ => rfl) (Host.reduce_andi_all _ _ _ _ _ c7)⟩

end Cert.Pre_finite_inputs.Hand

end
-- ==== Proof.lean ====
/-
  A three-layer graph convolution on 100000 nodes with 128 features: the kernel program against its reference.

  Both programs build, from the edge list, one self loop per node, each node's degree, the inverse square root of the
  degree, and one coefficient per edge (the product of that quantity at the edge's two ends); they build them by the
  same host operations. A layer of the REFERENCE multiplies the activations by the weights, then for every edge gathers
  the transformed row of the edge's source, scales it by the edge's coefficient and adds it into the row of the edge's
  destination, then adds the bias. A layer of the KERNEL program gathers, scales and adds the UNtransformed rows first
  (on the host) and then, in one tiled call over blocks of 2000 nodes, multiplies the aggregated rows by the weights and
  adds the bias; the first two layers end with the maximum with zero in both programs.

  Aggregation is a finite sum with real coefficients, so it commutes with the matrix product -- over the REALS. On the
  extended reals that is distributivity, which fails at an infinity, so the precondition (every float input finite) is
  used: inputs, weights, biases are arrays of reals; the edge coefficients are reals (a degree is a finite sum of ones,
  its inverse square root is taken only where it is positive); and each layer's output is again real, which carries the
  argument through the three layers. Both programs' results are then one and the same composition of arrays,
  `Cert.ReferenceIdeal.Hand.network`.

  The kernel program's frames are the generated ones; its value is read off the same launch (KRun.lean, KRegion*.lean,
  KHost.lean, KValue.lean). The reference's run and its stages read at an index are the generated modules' (in the
  repaired copies RefRun.lean and RefRead.lean), its value in closed form is RefValue.lean. The ideal pass rewrote
  nothing, so `preserves` is trivial.
-/
import proofs.«426604_j62036507623981_4_alg».proof.Defs
import proofs.«426604_j62036507623981_4_alg».proof.Proof.Gen.Kernel
import proofs.«426604_j62036507623981_4_alg».proof.Proof.Gen.Kernel.Frame
import proofs.«426604_j62036507623981_4_alg».proof.Proof.Gen.KernelIdeal
import proofs.«426604_j62036507623981_4_alg».proof.Proof.Gen.KernelIdeal.Frame
import proofs.«426604_j62036507623981_4_alg».proof.Proof.Gen.ReferenceIdeal
import proofs.«426604_j62036507623981_4_alg».proof.Proof.Gen.Pre_finite_inputs
import proofs.«426604_j62036507623981_4_alg».proof.Proof.KValue
import proofs.«426604_j62036507623981_4_alg».proof.Proof.RefValue
import proofs.«426604_j62036507623981_4_alg».proof.Proof.PreReal
import Idealize.ShloMosaic.Adequacy
import Idealize.ShloMosaic.Init

noncomputable section

namespace Cert.Proof

open Idealize.ShloMosaic Idealize.SL.Sem

/-- The word-level kernel program runs and leaves its arguments as launched: the generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, both idealized programs end with the network of the arguments. -/
theorem algebraic : Cert.algebraic_KernelIdeal_ReferenceIdeal := by
  intro m ρ m' ρ' hpre hagree
  refine ⟨fun c => Cert.ReferenceIdeal.Hand.network
      (m ((c.tc : Thread Cert.KernelIdeal.nD Cert.KernelIdeal.τ).loc Cert.KernelIdeal.main_arg1)) (m ((c.tc : Thread Cert.KernelIdeal.nD Cert.KernelIdeal.τ).loc Cert.KernelIdeal.main_arg0))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  obtain ⟨r0, r2, r3, r4, r5, r6, _⟩ := Cert.Pre_finite_inputs.Hand.isReal_of_pre _ _ _ _ _ _ _ _ (hpre c)
  rw [Cert.ReferenceIdeal.Read.val_main_v82_eq, a0, a1, a2, a3, a4, a5, a6, a7]
  exact Cert.ReferenceIdeal.Hand.result_eq_network _ _ _ _ _ _ _ _ r0 r2 r3 r4 r5 r6

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
